-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S_ : Shape := ⟨0, ![]⟩
abbrev S8 : Shape := ⟨1, ![8]⟩

abbrev nBuf : Space → Nat
  | .hbm => 25
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512x3, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_cst_7 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_v28 : Ref sig .tc := ⟨.hbm, 44, rfl⟩
abbrev main_cst_13 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KI0Cases.lean ====
/-
  The first row-minimum call: its grid points by case, and what the body is handed at a point.

  The grid is 8 × 8: the outer coordinate picks a block of 512 query points, the inner one a block of 512 key
  points. At the first inner step the running minimum is reset, at the last it is copied to the output block;
  at the steps between neither happens. A point's number is 8 · outer + inner, so the cases are read off the
  number modulo 8.
-/
import proofs.«100684_j1924145348887_1_alg».proof.Proof.Gen.KernelIdeal.Launch
import proofs.«100684_j1924145348887_1_alg».proof.Proof.Gen.KernelIdeal.Skeleton
import proofs.«100684_j1924145348887_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the call finds it. -/
def r0_iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds the query block at every point, fetched there or kept from the point before. -/
theorem r0_before_in0 {c : Dev nD} (dat : Dat τ (Elt F) Unit ℕ (UR sig nD τ) ℕ cfg0 c) (hA : dat.A 0 = V c (Pipeline.arrRef spec0 0))
    (hafter : ∀ t, dat.after 0 t = r0_iblk V c 0 t) (t : Fin cfg0.N) (d) : dat.before 0 t d = r0_iblk V c 0 t :=
  (dat.before_in_eq_fetched 0 rfl (fun _ => rfl) (fun _ _ _ => rfl) (fun t => by rw [hafter]; unfold Dat.blockOf r0_iblk; rw [hA]; try rfl) t d).trans
    (by unfold Dat.fetched Dat.blockOf r0_iblk; rw [hA]; try rfl)

/-- The key window's buffer holds the key block at every point. -/
theorem r0_before_in1 {c : Dev nD} (dat : Dat τ (Elt F) Unit ℕ (UR sig nD τ) ℕ cfg0 c) (hA : dat.A 1 = V c (Pipeline.arrRef spec0 1))
    (hafter : ∀ t, dat.after 1 t = r0_iblk V c 1 t) (t : Fin cfg0.N) (d) : dat.before 1 t d = r0_iblk V c 1 t :=
  (dat.before_in_eq_fetched 1 rfl (fun _ => rfl) (fun _ _ _ => rfl) (fun t => by rw [hafter]; unfold Dat.blockOf r0_iblk; rw [hA]; try rfl) t d).trans
    (by unfold Dat.fetched Dat.blockOf r0_iblk; rw [hA]; try rfl)

end Blocks

/-! ## The two conditions of the body, over the grid -/

/-- "The inner coordinate is 0": the running minimum is reset. -/
abbrev r0_first (i : grid0.Coords) : Prop :=
  (Scalar.cmpi .ne (Scalar.extui (Scalar.cmpi .eq (BitVec.ofNat 32 (i 1).val) 0#32)) 0#32) = 1#1
theorem r0_first_iff : ∀ t : Fin cfg0.N, r0_first (grid0.coords t) ↔ t.val % 8 = 0 :=
  (by decide +kernel : ∀ t : Fin grid0.N, r0_first (grid0.coords t) ↔ t.val % 8 = 0)

/-- "The inner coordinate is 7": the running minimum is copied out. -/
abbrev r0_last (i : grid0.Coords) : Prop := k0_cond2 i = 1#1
theorem r0_last_iff : ∀ t : Fin cfg0.N, r0_last (grid0.coords t) ↔ t.val % 8 = 7 :=
  (by decide +kernel : ∀ t : Fin grid0.N, r0_last (grid0.coords t) ↔ t.val % 8 = 7)

/-! ## Where the windows are idle -/

theorem r0_live0 : ∀ t : Fin cfg0.N, cfg0.idle 0 (grid0.coords t) = false := by decide +kernel
theorem r0_live1 : ∀ t : Fin cfg0.N, cfg0.idle 1 (grid0.coords t) = false := by decide +kernel
/-- Away from the last inner step the output block is not stored into and not written back. -/
theorem r0_idle2 : ∀ t : Fin cfg0.N, ¬r0_last (grid0.coords t) → cfg0.idle 2 (grid0.coords t) = true := by decide +kernel
theorem r0_noFlush2 : ∀ t : Fin cfg0.N, ¬r0_last (grid0.coords t) → (cfg0.win 2).flush t = false := by decide +kernel
/-- At the last inner step it is stored. -/
theorem r0_live2 : ∀ t : Fin cfg0.N, r0_last (grid0.coords t) → cfg0.idle 2 (grid0.coords t) = false := by decide +kernel

/-! ## The memrefs the body is called with -/

abbrev r0_ms0 (t : Fin cfg0.N) : Memref sig .tc .vmem S8x512x3 .f32 := win0_0.stage (cfg0.slots t 0)
abbrev r0_hs0 (t : Fin cfg0.N) : (r0_ms0 t).IsWhole := hstage0_0 ((cfg0.slots t 0).cast nbuf0_0)
abbrev r0_ms1 (t : Fin cfg0.N) : Memref sig .tc .vmem S8x512x3 .f32 := win0_1.stage (cfg0.slots t 1)
abbrev r0_hs1 (t : Fin cfg0.N) : (r0_ms1 t).IsWhole := hstage0_1 ((cfg0.slots t 1).cast nbuf0_1)
abbrev r0_ms2 (t : Fin cfg0.N) : Memref sig .tc .vmem S8x512 .f32 := win0_2.stage (cfg0.slots t 2)
abbrev r0_hs2 (t : Fin cfg0.N) : (r0_ms2 t).IsWhole := hstage0_2 ((cfg0.slots t 2).cast nbuf0_2)
/-- The running minimum's scratch buffer. -/
abbrev r0_scM : Memref sig .tc .vmem S8x512 .f32 := Memref.whole cc0_scratch0

/-! ## The scoped buffers the call does not stage: its scratch, and the other call's buffers -/

/-- The other call's staging buffers and scratch. -/
abbrev r0_others : List (Ref sig .tc) := [cc1_stg0_0, cc1_stg0_1, cc1_stg1_0, cc1_stg1_1, cc1_stg2_0, cc1_stg2_1, cc1_scratch0]

/-- Each of them whole at some contents: untouched by this call. -/
def r0_restOf (c : Dev nD) : sProp 𝕄 :=
  bigSepL r0_others fun b => iprop(∃ f : Buf (Elt F) ((c : Thread nD τ).loc b), ((c : Thread nD τ).loc b) ↦{fullShare} f)

/-- The invariant the launch hands the call: the scratch at some contents, the other call's buffers, the generator register. -/
theorem r0_PhiA_eq (c : Dev nD) :
    (Pipeline.ΦA spec0 c : sProp 𝕄)
      = iprop(iprop((∃ d, owns (c : Thread nD τ) r0_scM fullShare d) ∗ r0_restOf c) ∗ (∃ r, prngReg c r)) := by
  unfold Pipeline.ΦA
  rw [Pipeline.scopedRest_eq_of_list spec0 c (cc0_scratch0 :: r0_others) (by decide) (by decide), bigSepL_cons]
  unfold r0_restOf
  simp only [r0_scM, owns_whole]
  try rfl

end Cert.KernelIdeal.Hand

end
-- ==== Proof.KI0Body.lean ====
/-
  The first row-minimum call: one run of the body, by case.

  With the query block x, the key block y and the running minimum s, the body leaves in the scratch
  `k0_pay2 x y s` — the minimum of s and the row minima of the tile of distances — where at the first inner step
  s is the all-+infinity block `k0_pay1`; at the last inner step the output block receives the same value.
  The input blocks are left as found; away from the last step so is the output block.
-/
import proofs.«100684_j1924145348887_1_alg».proof.Proof.KI0Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block loads and fills

Every load and store of the body goes through the rectangle that is the whole block, at offset zero on each axis:
such a load reads the block's contents, and after such a store the block reads as the stored value, whatever was
stored before. -/

/-- The two-axis offset of a whole-block access is zero on each axis. -/
private theorem zeros2 : (![0, 0] : Fin 2 → Nat) = fun _ => 0 := funext fun a => by fin_cases a <;> rfl
/-- The three-axis offset of a whole-block access is zero on each axis. -/
private theorem zeros3 : (![0, 0, 0] : Fin 3 → Nat) = fun _ => 0 := funext fun a => by fin_cases a <;> rfl

/-- After a list of stores whose last one fills the whole 8 × 512 block, the block reads as that store's value. -/
private theorem read_after_fill {κ : Kind} {sp : Space} (v : View sig κ sp S8x512 .f32) (f : v.ty.Contents (Elt F))
    (inb : ∀ a, (![0, 0] : Fin 2 → Nat) a + S8x512.size a ≤ S8x512.size a) (w : S8x512.Idx → Elt F .f32)
    (L : List (View.Piece (Elt F) S8x512 .f32)) :
    v.read (Elt F) (v.writes (Elt F) f ((⟨Rect.unit ![0, 0] S8x512.size inb, w⟩ : View.Piece (Elt F) S8x512 .f32) :: L)) = w := by
  rw [View.read_writes_eq_canon _ _ _ (fun y => ⟨_, List.mem_cons_self, View.mem_set_unit_zero zeros2 inb y⟩),
    View.canon_cons_unit_zero zeros2]

/-- A whole-block load of a whole 8 × 512 × 3 memref reads its contents. -/
private theorem load_whole3 (m : Memref sig .tc .vmem S8x512x3 .f32) (hm : m.IsWhole) (X : Vec F S8x512x3 .f32)
    (inb : ∀ a, (![0, 0, 0] : Fin 3 → Nat) a + S8x512x3.size a ≤ S8x512x3.size a) :
    m.view.readAt (Elt F) (Rect.unit ![0, 0, 0] S8x512x3.size inb).toLoadRect (hm.unread X) = X := by
  rw [View.readAt_eq_ld, hm.read_unread, View.ld_unit_zero zeros3]

/-- A whole-block load of a whole 8 × 512 memref reads its contents. -/
private theorem load_whole2 (m : Memref sig .tc .vmem S8x512 .f32) (hm : m.IsWhole) (X : Vec F S8x512 .f32)
    (inb : ∀ a, (![0, 0] : Fin 2 → Nat) a + S8x512.size a ≤ S8x512.size a) :
    m.view.readAt (Elt F) (Rect.unit ![0, 0] S8x512.size inb).toLoadRect (hm.unread X) = X := by
  rw [View.readAt_eq_ld, hm.read_unread, View.ld_unit_zero zeros2]

/-! ## The body, case by case -/

set_option maxHeartbeats 1000000 in
/-- First inner step (not the last): the scratch, found at anything, ends at the tile's row minima against +infinity. -/
theorem r0_body_first (c : Dev nD) (i : grid0.Coords) (a : Memref sig .tc .vmem S8x512x3 .f32) (ha : a.IsWhole) (b : Memref sig .tc .vmem S8x512x3 .f32) (hb : b.IsWhole)
    (o : Memref sig .tc .vmem S8x512 .f32) (ho : o.IsWhole) (s : Memref sig .tc .vmem S8x512 .f32) (hs : s.IsWhole) (hc0 : r0_first i) (hc1 : ¬r0_last i)
    (x y : Vec F S8x512x3 .f32) (xo : Vec F S8x512 .f32) (E : Set ℕ) (K : PUnit → sProp 𝕄) :
    iprop(owns (c : Thread nD τ) a fullShare x ∗ owns (c : Thread nD τ) b fullShare y ∗ owns (c : Thread nD τ) o fullShare xo ∗ (∃ d, owns (c : Thread nD τ) s fullShare d)
        ∗ (iprop(owns (c : Thread nD τ) a fullShare x ∗ owns (c : Thread nD τ) b fullShare y ∗ owns (c : Thread nD τ) o fullShare xo
            ∗ owns (c : Thread nD τ) s fullShare (k0_pay2 x y (k0_pay1 (F := F)))) -∗ K ⟨⟩))
      ⊢ wp frame (wpE (defs₀ (F := F)) Variants.none c none) E (cc0__row_min_kernel i a ha b hb o ho s hs) K := by
  simp only [cc0__row_min_kernel_eq_skeleton]; unfold cc0__row_min_kernel_skel
  unfold owns
  iintro ⟨⟨%fa, %hfa, Ha⟩, ⟨%fb, %hfb, Hb⟩, ⟨%fo, %hfo, Ho⟩, ⟨%d, %fs, -, Hs⟩, Hk⟩
  obtain rfl := ha.eq_unread hfa; obtain rfl := hb.eq_unread hfb
  obtain rfl := ho.eq_unread hfo
  sl_exec (disch := first | exact hc0 | exact hc1)
  sl_step
  iapply Hk
  isplitl [Ha]
  · iexists _; isplitr; · ipureintro; exact ha.read_unread _
    iexact Ha
  isplitl [Hb]
  · iexists _; isplitr; · ipureintro; exact hb.read_unread _
    iexact Hb
  isplitl [Ho]
  · iexists _; isplitr; · ipureintro; exact ho.read_unread _
    iexact Ho
  iexists _; isplitr; swap
  · iexact Hs
  ipureintro
  -- the scratch was filled twice; the later fill is the minimum against what the load between them read,
  -- and that load read the first fill, the block of +infinity
  refine (read_after_fill _ _ _ _ _).trans ?_
  sl_unfold_run_names
  rw [View.readCov_unit_zero (S := S8x512) _ zeros2, load_whole3 a ha x, load_whole3 b hb y]

set_option maxHeartbeats 1000000 in
/-- A step strictly between: the scratch, found at `xs`, ends at the minimum of `xs` and the tile's row minima. -/
theorem r0_body_mid (c : Dev nD) (i : grid0.Coords) (a : Memref sig .tc .vmem S8x512x3 .f32) (ha : a.IsWhole) (b : Memref sig .tc .vmem S8x512x3 .f32) (hb : b.IsWhole)
    (o : Memref sig .tc .vmem S8x512 .f32) (ho : o.IsWhole) (s : Memref sig .tc .vmem S8x512 .f32) (hs : s.IsWhole) (hc0 : ¬r0_first i) (hc1 : ¬r0_last i)
    (x y : Vec F S8x512x3 .f32) (xo : Vec F S8x512 .f32) (xs : Vec F S8x512 .f32) (E : Set ℕ) (K : PUnit → sProp 𝕄) :
    iprop(owns (c : Thread nD τ) a fullShare x ∗ owns (c : Thread nD τ) b fullShare y ∗ owns (c : Thread nD τ) o fullShare xo ∗ owns (c : Thread nD τ) s fullShare xs
        ∗ (iprop(owns (c : Thread nD τ) a fullShare x ∗ owns (c : Thread nD τ) b fullShare y ∗ owns (c : Thread nD τ) o fullShare xo
            ∗ owns (c : Thread nD τ) s fullShare (k0_pay2 x y xs)) -∗ K ⟨⟩))
      ⊢ wp frame (wpE (defs₀ (F := F)) Variants.none c none) E (cc0__row_min_kernel i a ha b hb o ho s hs) K := by
  simp only [cc0__row_min_kernel_eq_skeleton]; unfold cc0__row_min_kernel_skel
  unfold owns
  iintro ⟨⟨%fa, %hfa, Ha⟩, ⟨%fb, %hfb, Hb⟩, ⟨%fo, %hfo, Ho⟩, ⟨%fs, %hfs, Hs⟩, Hk⟩
  obtain rfl := ha.eq_unread hfa; obtain rfl := hb.eq_unread hfb
  obtain rfl := ho.eq_unread hfo; obtain rfl := hs.eq_unread hfs
  sl_exec (disch := first | exact hc0 | exact hc1)
  sl_step
  iapply Hk
  isplitl [Ha]
  · iexists _; isplitr; · ipureintro; exact ha.read_unread _
    iexact Ha
  isplitl [Hb]
  · iexists _; isplitr; · ipureintro; exact hb.read_unread _
    iexact Hb
  isplitl [Ho]
  · iexists _; isplitr; · ipureintro; exact ho.read_unread _
    iexact Ho
  iexists _; isplitr; swap
  · iexact Hs
  ipureintro
  -- one fill of the scratch: the minimum of what the three loads read, and each load read a whole block
  refine (read_after_fill _ _ _ _ _).trans ?_
  rw [load_whole3 a ha x, load_whole3 b hb y, load_whole2 s hs xs]

set_option maxHeartbeats 1000000 in
/-- Last inner step (not the first): the scratch ends as at a middle step, and the output block, found at anything, receives the same value. -/
theorem r0_body_last (c : Dev nD) (i : grid0.Coords) (a : Memref sig .tc .vmem S8x512x3 .f32) (ha : a.IsWhole) (b : Memref sig .tc .vmem S8x512x3 .f32) (hb : b.IsWhole)
    (o : Memref sig .tc .vmem S8x512 .f32) (ho : o.IsWhole) (s : Memref sig .tc .vmem S8x512 .f32) (hs : s.IsWhole) (hc0 : ¬r0_first i) (hc1 : r0_last i)
    (x y : Vec F S8x512x3 .f32) (xs : Vec F S8x512 .f32) (E : Set ℕ) (K : PUnit → sProp 𝕄) :
    iprop(owns (c : Thread nD τ) a fullShare x ∗ owns (c : Thread nD τ) b fullShare y ∗ (∃ d, owns (c : Thread nD τ) o fullShare d) ∗ owns (c : Thread nD τ) s fullShare xs
        ∗ (iprop(owns (c : Thread nD τ) a fullShare x ∗ owns (c : Thread nD τ) b fullShare y ∗ owns (c : Thread nD τ) o fullShare (k0_pay2 x y xs)
            ∗ owns (c : Thread nD τ) s fullShare (k0_pay2 x y xs)) -∗ K ⟨⟩))
      ⊢ wp frame (wpE (defs₀ (F := F)) Variants.none c none) E (cc0__row_min_kernel i a ha b hb o ho s hs) K := by
  simp only [cc0__row_min_kernel_eq_skeleton]; unfold cc0__row_min_kernel_skel
  unfold owns
  iintro ⟨⟨%fa, %hfa, Ha⟩, ⟨%fb, %hfb, Hb⟩, ⟨%d, %fo, -, Ho⟩, ⟨%fs, %hfs, Hs⟩, Hk⟩
  obtain rfl := ha.eq_unread hfa; obtain rfl := hb.eq_unread hfb
  obtain rfl := hs.eq_unread hfs
  sl_exec (disch := first | exact hc0 | exact hc1)
  sl_step
  iapply Hk
  isplitl [Ha]
  · iexists _; isplitr; · ipureintro; exact ha.read_unread _
    iexact Ha
  isplitl [Hb]
  · iexists _; isplitr; · ipureintro; exact hb.read_unread _
    iexact Hb
  isplitl [Ho]
  · iexists _; isplitr; swap
    · iexact Ho
    ipureintro
    -- the output block was filled with what a load of the scratch read after the scratch's fill: that fill's value
    refine (read_after_fill _ _ _ _ _).trans ?_
    sl_unfold_run_names
    rw [View.readCov_unit_zero (S := S8x512) _ zeros2, load_whole3 a ha x, load_whole3 b hb y, load_whole2 s hs xs]
  iexists _; isplitr; swap
  · iexact Hs
  ipureintro
  -- the scratch itself: one fill, as at a middle step
  sl_unfold_run_names
  refine (read_after_fill _ _ _ _ _).trans ?_
  rw [load_whole3 a ha x, load_whole3 b hb y, load_whole2 s hs xs]

end Cert.KernelIdeal.Hand

end
-- ==== Proof.KI0Data.lean ====
/-
  The first row-minimum call: the running minimum point by point, and the body's obligation to the pipeline.

  After point t = 8 · outer + inner the scratch holds the minimum, over the key blocks 0 … inner, of the row minima
  of the query block `outer` against that key block: at inner = 0 it restarts from +infinity, otherwise it
  continues from what the point before left. The output block is stored, with that value, at inner = 7 only.
-/
import proofs.«100684_j1924145348887_1_alg».proof.Proof.KI0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-- What the scratch holds after point `n`: the running minimum, restarted at every first inner step. -/
def r0_acc (c : Dev nD) : (n : ℕ) → n < cfg0.N → Vec F S8x512 .f32
  | 0, hn => k0_pay2 (r0_iblk V c 0 ⟨0, hn⟩) (r0_iblk V c 1 ⟨0, hn⟩) (k0_pay1 (F := F))
  | n + 1, hn =>
    if (n + 1) % 8 = 0 then k0_pay2 (r0_iblk V c 0 ⟨n + 1, hn⟩) (r0_iblk V c 1 ⟨n + 1, hn⟩) (k0_pay1 (F := F))
    else k0_pay2 (r0_iblk V c 0 ⟨n + 1, hn⟩) (r0_iblk V c 1 ⟨n + 1, hn⟩) (r0_acc c n (Nat.lt_of_succ_lt hn))

/-- At a first inner step the minimum restarts from +infinity. -/
theorem r0_acc_first (c : Dev nD) (t : Fin cfg0.N) (h : t.val % 8 = 0) :
    r0_acc V c t.val t.isLt = k0_pay2 (r0_iblk V c 0 t) (r0_iblk V c 1 t) (k0_pay1 (F := F)) := by
  obtain ⟨n, hn⟩ := t
  cases n with
  | zero => rfl
  | succ n => exact if_pos h

/-- At any other step it continues from the point before. -/
theorem r0_acc_step (c : Dev nD) (t : Fin cfg0.N) (h : ¬t.val % 8 = 0) :
    r0_acc V c t.val t.isLt
      = k0_pay2 (r0_iblk V c 0 t) (r0_iblk V c 1 t) (r0_acc V c (t.val - 1) (Nat.lt_of_le_of_lt (Nat.sub_le _ _) t.isLt)) := by
  obtain ⟨n, hn⟩ := t
  cases n with
  | zero => exact absurd (Nat.zero_mod 8) h
  | succ n => exact if_neg h

/-- The call's invariant before point `n`: at the start what the launch hands over; afterwards the scratch at the
    running minimum the point before left, the other call's buffers and the generator register untouched. -/
def r0_Phi (c : Dev nD) : (n : ℕ) → n ≤ cfg0.N → sProp 𝕄
  | 0, _ => Pipeline.ΦA spec0 c
  | n + 1, hn => iprop(iprop(owns (c : Thread nD τ) r0_scM fullShare (r0_acc V c n hn) ∗ r0_restOf c) ∗ (∃ r, prngReg c r))

theorem r0_Phi_zero (c : Dev nD) (n : ℕ) (h : n ≤ cfg0.N) (hz : n = 0) : r0_Phi V c n h = Pipeline.ΦA spec0 c := by
  subst hz; rfl

theorem r0_Phi_succ (c : Dev nD) (n : ℕ) (hn : n < cfg0.N) :
    r0_Phi V c (n + 1) hn = iprop(iprop(owns (c : Thread nD τ) r0_scM fullShare (r0_acc V c n hn) ∗ r0_restOf c) ∗ (∃ r, prngReg c r)) := rfl

theorem r0_Phi_pos (c : Dev nD) (n : ℕ) (h : n ≤ cfg0.N) (hz : n ≠ 0) :
    r0_Phi V c n h = iprop(iprop(owns (c : Thread nD τ) r0_scM fullShare (r0_acc V c (n - 1) (by omega)) ∗ r0_restOf c) ∗ (∃ r, prngReg c r)) := by
  cases n with
  | zero => exact absurd rfl hz
  | succ n => rfl

/-- The call's proof data on core `c`: the arrays as the call finds them; after the body at point `t` the two
    input buffers at their blocks and the output buffer at the running minimum; nothing owed; full shares. -/
def r0_dat (c : Dev nD) : Dat τ (Elt F) Unit ℕ (UR sig nD τ) ℕ cfg0 c where
  A w := V c (Pipeline.arrRef spec0 w)
  after w t := match w with
    | ⟨0, _⟩ => r0_iblk V c 0 t
    | ⟨1, _⟩ => r0_iblk V c 1 t
    | ⟨2, _⟩ => r0_acc V c t.val t.isLt
  Φ t := r0_Phi V c t.val (Nat.le_of_lt_succ t.isLt)
  q _ := fullShare
  owed _ := 0

theorem r0_A_eq (c : Dev nD) (w : Fin cfg0.W) : (r0_dat V c).A w = V c (Pipeline.arrRef spec0 w) := by
  dsimp only [r0_dat]

theorem r0_after0 (c : Dev nD) (t : Fin cfg0.N) : (r0_dat V c).after 0 t = r0_iblk V c 0 t := by dsimp only [r0_dat]
theorem r0_after1 (c : Dev nD) (t : Fin cfg0.N) : (r0_dat V c).after 1 t = r0_iblk V c 1 t := by dsimp only [r0_dat]
theorem r0_after2 (c : Dev nD) (t : Fin cfg0.N) : (r0_dat V c).after 2 t = r0_acc V c t.val t.isLt := by dsimp only [r0_dat]

theorem r0_Phi_castSucc (c : Dev nD) (t : Fin cfg0.N) :
    (r0_dat V c).Φ t.castSucc = r0_Phi V c t.val (Nat.le_of_lt t.isLt) := by
  dsimp only [r0_dat]; simp only [Fin.coe_castSucc]

/-- Before any point the invariant holds the scratch at some contents: at the start by what the launch hands
    over, later by forgetting which running minimum it is. -/
theorem r0_Phi_some (c : Dev nD) (n : ℕ) (h : n ≤ cfg0.N) :
    r0_Phi V c n h ⊢ iprop(iprop((∃ d, owns (c : Thread nD τ) r0_scM fullShare d) ∗ r0_restOf c) ∗ (∃ r, prngReg c r)) := by
  cases n with
  | zero => rw [r0_Phi_zero V c 0 h rfl, r0_PhiA_eq]
  | succ n =>
    rw [r0_Phi_succ]
    iintro ⟨⟨HS, HR⟩, Hg⟩
    isplitl [HS HR]
    · isplitl [HS]
      · iexists _; iexact HS
      iexact HR
    iexact Hg

set_option maxHeartbeats 1600000 in
/-- One point of the grid. The two input buffers hold their blocks. By the inner coordinate: at 0 the scratch,
    whatever it holds, restarts from +infinity; elsewhere it holds the running minimum of the point before and
    is lowered by this tile's row minima; at 7 the output block receives that value, and at every other inner
    coordinate the output buffer is handed back as found. The other call's buffers, the generator register and
    what the core owes pass through. -/
theorem r0_point (c : Dev nD) (t : Fin cfg0.N) :
    iprop((r0_dat V c).Φ t.castSucc ∗ (r0_dat V c).owesAt () t.castSucc
        ∗ (∃ d, owns (c : Thread nD τ) (r0_ms0 t) fullShare ((r0_dat V c).before 0 t d))
        ∗ (∃ d, owns (c : Thread nD τ) (r0_ms1 t) fullShare ((r0_dat V c).before 1 t d))
        ∗ (∃ d, owns (c : Thread nD τ) (r0_ms2 t) fullShare ((r0_dat V c).before 2 t d)))
      ⊢ wp frame (wpE (defs₀ (F := F)) Variants.none c none) Set.univ (bodyAt0 t) (fun _ =>
          iprop((r0_dat V c).Φ t.succ ∗ (r0_dat V c).owesAt () t.succ
            ∗ (r0_dat V c).leavesExact 0 t ∗ (r0_dat V c).leavesExact 1 t ∗ (r0_dat V c).leavesExact 2 t)) := by
  have hN : t.val < 64 := lt_of_lt_of_eq t.isLt (show cfg0.N = 64 from N_0)
  have hb0 : ∀ d, (r0_dat V c).before 0 t d = r0_iblk V c 0 t :=
    r0_before_in0 V (r0_dat V c) (r0_A_eq V c 0) (r0_after0 V c) t
  have hb1 : ∀ d, (r0_dat V c).before 1 t d = r0_iblk V c 1 t :=
    r0_before_in1 V (r0_dat V c) (r0_A_eq V c 1) (r0_after1 V c) t
  have hl0 : (r0_dat V c).leavesExact 0 t = owns (c : Thread nD τ) (r0_ms0 t) fullShare (r0_iblk V c 0 t) := by
    unfold Dat.leavesExact; rw [r0_live0 t, r0_after0]
  have hl1 : (r0_dat V c).leavesExact 1 t = owns (c : Thread nD τ) (r0_ms1 t) fullShare (r0_iblk V c 1 t) := by
    unfold Dat.leavesExact; rw [r0_live1 t, r0_after1]
  unfold bodyAt0
  simp only [hb0, hb1]
  rw [hl0, hl1, show (r0_dat V c).owesAt () t.succ = (r0_dat V c).owesAt () t.castSucc from rfl,
    show (r0_dat V c).Φ t.succ = r0_Phi V c (t.val + 1) t.isLt from rfl, r0_Phi_succ, r0_Phi_castSucc]
  by_cases h0 : t.val % 8 = 0
  · -- inner coordinate 0
    have hf : r0_first (grid0.coords t) := (r0_first_iff t).mpr h0
    have hnl : ¬r0_last (grid0.coords t) := fun h => by have := (r0_last_iff t).mp h; omega
    rw [Dat.leavesExact_idle (r0_dat V c) 2 t (r0_idle2 t hnl) (r0_noFlush2 t hnl), r0_acc_first V c t h0]
    refine BIBase.Entails.trans (sep_mono_left (r0_Phi_some V c t.val (Nat.le_of_lt t.isLt))) ?_
    iintro ⟨⟨⟨HS, HR⟩, Hg⟩, Ho, ⟨%d0, H0⟩, ⟨%d1, H1⟩, ⟨%d2, H2⟩⟩
    iapply (r0_body_first c (grid0.coords t) _ (r0_hs0 t) _ (r0_hs1 t) _ (r0_hs2 t) _ (Memref.isWhole_whole _) hf hnl
      (r0_iblk V c 0 t) (r0_iblk V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · -- inner coordinate positive: the point before left the running minimum
    have hnf : ¬r0_first (grid0.coords t) := fun h => h0 ((r0_first_iff t).mp h)
    have hz : t.val ≠ 0 := fun h => h0 (by rw [h])
    rw [r0_acc_step V c t h0, r0_Phi_pos V c _ _ hz]
    by_cases h7 : t.val % 8 = 7
    · -- inner coordinate 7: the output block is stored
      have hl : r0_last (grid0.coords t) := (r0_last_iff t).mpr h7
      rw [show (r0_dat V c).leavesExact 2 t = owns (c : Thread nD τ) (r0_ms2 t) fullShare (r0_acc V c t.val t.isLt) from by
        unfold Dat.leavesExact; rw [r0_live2 t hl, r0_after2], r0_acc_step V c t h0]
      iintro ⟨⟨⟨HS, HR⟩, Hg⟩, Ho, ⟨%d0, H0⟩, ⟨%d1, H1⟩, ⟨%d2, H2⟩⟩
      iapply (r0_body_last c (grid0.coords t) _ (r0_hs0 t) _ (r0_hs1 t) _ (r0_hs2 t) _ (Memref.isWhole_whole _) hnf hl
        (r0_iblk V c 0 t) (r0_iblk V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- inner coordinate 1 … 6
      have hnl : ¬r0_last (grid0.coords t) := fun h => h7 ((r0_last_iff t).mp h)
      rw [Dat.leavesExact_idle (r0_dat V c) 2 t (r0_idle2 t hnl) (r0_noFlush2 t hnl)]
      iintro ⟨⟨⟨HS, HR⟩, Hg⟩, Ho, ⟨%d0, H0⟩, ⟨%d1, H1⟩, ⟨%d2, H2⟩⟩
      iapply (r0_body_mid c (grid0.coords t) _ (r0_hs0 t) _ (r0_hs1 t) _ (r0_hs2 t) _ (Memref.isWhole_whole _) hnf hnl
        (r0_iblk V c 0 t) (r0_iblk V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body's obligation to the pipeline at every point. -/
theorem r0_obligation (c : Dev nD) : BodyObligation (r0_dat (F := F) V c) (defs₀ (F := F)) Variants.none () Set.univ := fun t => by
  rw [bigSep_W0, bigSep_W0]
  exact r0_point V c t

/-- What the launch hands the call is the invariant before the first point. -/
theorem r0_Phi_in (c : Dev nD) : Pipeline.ΦA spec0 c ⊢ (r0_dat V c).Φ 0 := by
  rw [show (r0_dat V c).Φ 0 = r0_Phi V c 0 (Nat.zero_le _) from rfl, r0_Phi_zero V c 0 _ rfl]

/-- After the last point the invariant gives it back, the running minimum forgotten. -/
theorem r0_Phi_out (c : Dev nD) : (r0_dat V c).Φ (Fin.last cfg0.N) ⊢ Pipeline.ΦA spec0 c := by
  rw [r0_PhiA_eq]
  exact r0_Phi_some V c (Fin.last cfg0.N).val (Nat.le_of_lt_succ (Fin.last cfg0.N).isLt)

end Data

end Cert.KernelIdeal.Hand

end
-- ==== Proof.KIRun.lean ====
/-
  The whole program: the two row-minimum calls and the host lines after them, from the launch to the return.

  Between the items of the program the unscoped buffers hold: at launch the memory; after the first call the same
  with the first result array at what that call's write-backs leave; after the second call likewise with the
  second result array; after the host lines their results computed from those. Every weakly fair execution ends,
  faults nowhere, and leaves every unscoped buffer at the last of these contents; in particular the two argument
  arrays end as launched.
-/
import proofs.«100684_j1924145348887_1_alg».proof.Proof.KI0Data
import proofs.«100684_j1924145348887_1_alg».proof.Proof.KI1Data
import proofs.«100684_j1924145348887_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- Core `c`'s buffers at launch. -/
abbrev W0 : Dev nD → Valuation τ sig (Elt F) := fun c b => m (c, b)
/-- The same read at the TensorCore's references: what the first call finds. -/
abbrev E0 : (c : Dev nD) → (b : Ref sig .tc) → Buf (Elt F) ((c : Thread nD τ).loc b) := fun c b => W0 m c b
/-- After the first call: its arrays at what its write-backs leave, every other buffer as before. -/
def W1 (c : Dev nD) : Valuation τ sig (Elt F) :=
  Pipeline.withArrays spec0 c (W0 m c) fun w => (r0_dat (E0 m) c).arrAt w cfg0.N
/-- What the second call finds. -/
abbrev E1 : (c : Dev nD) → (b : Ref sig .tc) → Buf (Elt F) ((c : Thread nD τ).loc b) := fun c b => W1 m c b
/-- After the second call. -/
def W2 (c : Dev nD) : Valuation τ sig (Elt F) :=
  Pipeline.withArrays spec1 c (W1 m c) fun w => (r1_dat (E1 m) c).arrAt w cfg1.N
/-- After the host lines. -/
abbrev W3 : Dev nD → Valuation τ sig (Elt F) := fun c => StableHlo.after hostOps2 (W2 m c)

theorem W1_arr (c : Dev nD) (w : Fin cfg0.W) :
    W1 m c (Proc.devRef .tc (Pipeline.arrRef spec0 w)) = (r0_dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (r1_dat (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- The second call finds the two argument arrays as launched (the first call only reads them). -/
theorem E1_main_arg0 (c : Dev nD) : E1 m c main_arg0 = m ((c : Thread nD τ).loc main_arg0) :=
  -- the first call's window 0 is an input window over this array: never written back, it stays at the entry contents
  (W1_arr m c 0).trans (((r0_dat (E0 m) c).arrAt_in 0 rfl _).trans (r0_A_eq (E0 m) c 0))
theorem E1_main_arg1 (c : Dev nD) : E1 m c main_arg1 = m ((c : Thread nD τ).loc main_arg1) :=
  -- likewise its window 1
  (W1_arr m c 1).trans (((r0_dat (E0 m) c).arrAt_in 1 rfl _).trans (r0_A_eq (E0 m) c 1))

/-- After both calls the first result array still holds what the first call left (the second call does not touch it). -/
theorem W2_main_v0 (c : Dev nD) :
    W2 m c (Proc.devRef .tc (Pipeline.arrRef spec0 2)) = (r0_dat (E0 m) c).arrAt 2 cfg0.N :=
  -- the first result array is none of the second call's three arrays
  (W2_of_ne m c (Pipeline.arrRef spec0 2) (by decide)).trans (W1_arr m c 2)

/-- The argument arrays end as launched: no call writes them and no host line does. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    -- in the second call this array is input window 1's: left at that call's entry contents
    _ = E1 m c main_arg0 := (W2_arr m c 1).trans (((r1_dat (E1 m) c).arrAt_in 1 rfl _).trans (r1_A_eq (E1 m) c 1))
    _ = m ((c : Thread nD τ).loc main_arg0) := E1_main_arg0 m c
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    -- in the second call this array is input window 0's
    _ = E1 m c main_arg1 := (W2_arr m c 0).trans (((r1_dat (E1 m) c).arrAt_in 0 rfl _).trans (r1_A_eq (E1 m) c 0))
    _ = m ((c : Thread nD τ).loc main_arg1) := E1_main_arg1 m c

/-- An unscoped TensorCore reference is among those the program's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

/-- The first call's exit contents, read at the TensorCore's references, against its entry contents: each of its
    arrays holds what the write-backs leave, every other buffer what it held. -/
theorem run_exit0_arr (c : Dev nD) (w : Fin cfg0.W) : (r0_dat (E0 m) c).arrAt w cfg0.N = E1 m c (Pipeline.arrRef spec0 w) :=
  (W1_arr m c w).symm
theorem run_exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)
/-- What the host lines find: the second call's exit contents. -/
abbrev E2 : (c : Dev nD) → (b : Ref sig .tc) → Buf (Elt F) ((c : Thread nD τ).loc b) := fun c b => W2 m c b
theorem run_exit1_arr (c : Dev nD) (w : Fin cfg1.W) : (r1_dat (E1 m) c).arrAt w cfg1.N = E2 m c (Pipeline.arrRef spec1 w) :=
  (W2_arr m c w).symm
theorem run_exit1_rest (c : Dev nD) : ∀ b, b ∉ Finset.univ.image (Pipeline.arrRef spec1) → E2 m c b = E1 m c b :=
  fun b hb => W2_of_ne m c b fun w e => hb (Finset.mem_image.mpr ⟨w, Finset.mem_univ _, e⟩)

/-- The two calls' proof data, each at what its call finds. -/
def run_pdats : (p : Fin 2) → (c : Dev nD) → Dat τ (Elt F) Unit ℕ (UR sig nD τ) ℕ (Pipeline.pin (pcfgs (F := F)) adm p) c
  | ⟨0, _⟩ => fun c => r0_dat (E0 m) c
  | ⟨1, _⟩ => fun c => r1_dat (E1 m) c
/-- No core owes another anything: no level is assigned. -/
abbrev run_L : GSem nD τ sig → Finset Unit := fun _ => ∅
abbrev run_lv : GSem nD τ sig → Unit → ℕ := fun _ _ => 0
/-- What a core holds beside its unscoped buffers between two items: its generator register at some state, and
    that it owes nothing. -/
abbrev run_R (c : Dev nD) : sProp 𝕄 :=
  iprop((∃ r, prngReg c r) ∗ ∃ W, owes (c : Thread nD τ) (0 : CellTallies nD τ sig Unit) W)
/-- A core's state between two items: every unscoped buffer whole at the contents `W`, and the rest. -/
abbrev run_T (W : Dev nD → Valuation τ sig (Elt F)) (c : Dev nD) : sProp 𝕄 :=
  iprop(StableHlo.held (c : Thread nD τ) (Pipeline.ucRefs τ sig) (W c) ∗ run_R c)

/-- The host lines as an item: from the unscoped buffers at `W2` to them at `W3`. -/
def run_host : Pipeline.HostSeg (Name := ℕ) (U := UR sig nD τ) (pcfgs (F := F)) defs₀ Variants.none run_L run_lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) run_R

set_option backward.isDefEq.respectTransparency.types false in
/-- The first call as an item: entered with every unscoped buffer at the launch contents, left with them at `W1`.
    Its three arrays are split out of the unscoped buffers at entry and put back, at what the write-backs leave,
    at exit; the generator register goes into the call's invariant and comes back; nothing is owed. -/
def run_reg0 : Pipeline.RegionSeg (pcfgs (F := F)) adm (run_pdats m) () defs₀ Variants.none run_L run_lv 0 where
  win := launch0.win.to₀
  block_pos := launch0.block_pos
  stage_whole := launch0.stage_whole
  K := PEmpty
  osem k := k.elim
  ho := Pipeline.OwnSemFacts.none _
  hbody c := (r0_obligation (E0 m) c).loose
  hwaits := Pipeline.hwaits_of_owed_zero _ _ _ _ run_L run_lv 0 fun _ _ => rfl
  pre := run_T (W0 m)
  post := run_T (W1 m)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (run_pdats m) launch0.win launch0.arr_whole c
      ((run_pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (r0_Phi_in (E0 m) c)
    unfold Pipeline.ΦA
    iintro ⟨Hp, -, Hr⟩
    isplitl [Hr]; · iexact Hr
    iexact Hp
  hout c := by
    rw [Pipeline.ownSems0_none]
    refine BIBase.Entails.trans (r0_Phi_out (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (run_pdats m) ((run_pdats m 0 c).share_full fun _ => rfl)
      (E0 m c) (E1 m c) ((run_pdats m 0 c).arrAt · cfg0.N) (run_exit0_arr m c) (run_exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as an item: entered with every unscoped buffer at `W1`, left with them at `W2`. -/
def run_reg1 : Pipeline.RegionSeg (pcfgs (F := F)) adm (run_pdats m) () defs₀ Variants.none run_L run_lv 1 where
  win := launch1.win.to₀
  block_pos := launch1.block_pos
  stage_whole := launch1.stage_whole
  K := PEmpty
  osem k := k.elim
  ho := Pipeline.OwnSemFacts.none _
  hbody c := (r1_obligation (E1 m) c).loose
  hwaits := Pipeline.hwaits_of_owed_zero _ _ _ _ run_L run_lv 1 fun _ _ => rfl
  pre := run_T (W1 m)
  post := run_T (W2 m)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (run_pdats m) launch1.win launch1.arr_whole c
      ((run_pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (r1_Phi_in (E1 m) c)
    unfold Pipeline.ΦA
    iintro ⟨Hp, -, Hr⟩
    isplitl [Hr]; · iexact Hr
    iexact Hp
  hout c := by
    rw [Pipeline.ownSems0_none]
    refine BIBase.Entails.trans (r1_Phi_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (run_pdats m) ((run_pdats m 1 c).share_full fun _ => rfl)
      (E1 m c) (E2 m c) ((run_pdats m 1 c).arrAt · cfg1.N) (run_exit1_arr m c) (run_exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three items in order: the two calls, then the host lines. -/
abbrev run_segs : List (Pipeline.Seg (pcfgs (F := F)) adm (run_pdats m) () defs₀ Variants.none run_L run_lv) :=
  [.region (run_reg0 m), .region (run_reg1 m), .host (run_host m)]

set_option backward.isDefEq.respectTransparency.types false in
/-- From any memory with zero counters every weakly fair execution of the program terminates, faults nowhere, and
    leaves every unscoped buffer of every core at `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (run_pdats m) () cellOf_inj emb₁ defs₀ Variants.none run_L run_lv m ρ main (run_segs m)
    (fun c Q => by
      rw [main_segs adm (run_pdats m) () Variants.none run_L run_lv (run_host m) (run_reg0 m) (run_reg1 m) rfl c])
    (by simp only [run_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := run_T (W0 m))
    (Tₙ := fun c => iprop(StableHlo.held (c : Thread nD τ) (Pipeline.ucRefs τ sig) (W3 m c) ∗ ∃ r, prngReg c r))
    (hch := ⟨fun _ => .rfl, fun _ => .rfl, fun _ => .rfl, fun c => by
      -- the host lines leave the buffers at `W3` beside the register and the empty debt: regroup
      show iprop(StableHlo.held (c : Thread nD τ) (Pipeline.ucRefs τ sig) (W3 m c) ∗ run_R c)
        ⊢ iprop((StableHlo.held (c : Thread nD τ) (Pipeline.ucRefs τ sig) (W3 m c) ∗ ∃ r, prngReg c r)
            ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach run_L run_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Hand

end
-- ==== Proof.KI0Blocks.lean ====
/-
  The first row-minimum call: its blocks as rows of the arrays.

  The query array and the key array are 8 × 4096 × 3, cut along the middle axis into 8 blocks of 512 rows. At
  point t = 8 · outer + inner the query block is rows 512 · outer … 512 · outer + 511 and the key block rows
  512 · inner … 512 · inner + 511. The result array is 8 × 4096, cut the same way by the outer coordinate; its
  block `outer` is written back once, after the last inner step, so the whole array is read off what those
  steps leave.
-/
import proofs.«100684_j1924145348887_1_alg».proof.Proof.KI0Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The row of the 4096 that entry r of the query block at point t is: 512 · (t / 8) + r. -/
def r0_qrow (t : Fin cfg0.N) (r : Fin 512) : Fin 4096 :=
  ⟨512 * (t.val / 8) + r.val, by have := lt_of_lt_of_eq t.isLt (show cfg0.N = 64 from N_0); have := r.isLt; omega⟩

/-- The row that entry j of the key block at point t is: 512 · (t % 8) + j. -/
def r0_krow (t : Fin cfg0.N) (j : Fin 512) : Fin 4096 :=
  ⟨512 * (t.val % 8) + j.val, by have := j.isLt; omega⟩

theorem r0_qrow_val (t : Fin cfg0.N) (r : Fin 512) : (r0_qrow t r).val = 512 * (t.val / 8) + r.val := rfl
theorem r0_krow_val (t : Fin cfg0.N) (j : Fin 512) : (r0_krow t j).val = 512 * (t.val % 8) + j.val := rfl

/-- The block each window is on, over the grid: along the axis of 4096 the query window and the result window are on
    block `outer` = t / 8, the key window on block `inner` = t % 8; along every other axis a block is the whole axis. -/
theorem r0_index_of : ∀ t : Fin cfg0.N,
    (win0_0.index t 0 = 0 ∧ win0_0.index t 1 = t.val / 8 ∧ win0_0.index t 2 = 0)
    ∧ (win0_1.index t 0 = 0 ∧ win0_1.index t 1 = t.val % 8 ∧ win0_1.index t 2 = 0)
    ∧ (win0_2.index t 0 = 0 ∧ win0_2.index t 1 = t.val / 8) :=
  (by decide +kernel : ∀ t : Fin grid0.N,
    (win0_0.index t 0 = 0 ∧ win0_0.index t 1 = t.val / 8 ∧ win0_0.index t 2 = 0)
    ∧ (win0_1.index t 0 = 0 ∧ win0_1.index t 1 = t.val % 8 ∧ win0_1.index t 2 = 0)
    ∧ (win0_2.index t 0 = 0 ∧ win0_2.index t 1 = t.val / 8))

section Blocks

variable (V : (c : Dev nD) → (b : Ref sig .tc) → Buf (Elt F) ((c : Thread nD τ).loc b))

/-- The query block at point t is rows 512·(t/8) … of window 0's array. -/
theorem r0_xblk_apply (c : Dev nD) (t : Fin cfg0.N) (b : Fin 8) (r : Fin 512) (d : Fin 3) :
    r0_iblk V c 0 t (ix3 b r d) = V c (Pipeline.arrRef spec0 0) (ix3 b (r0_qrow t r) d) := by
  obtain ⟨h0, h1, h2⟩ := (r0_index_of t).1
  show ((cfg0.win 0).blk t).view.read (Elt F) (V c (Pipeline.arrRef spec0 0)) (ix3 b r d) = _
  rw [View.read_apply]
  show V c (Pipeline.arrRef spec0 0) _ = V c (Pipeline.arrRef spec0 0) _
  congr 1
  -- a block's coordinate in the array is block index × block size + the coordinate inside the block
  funext a
  apply Fin.ext
  match a with
  | ⟨0, _⟩ => show win0_0.index t 0 * 8 + 1 * b.val = b.val; rw [h0]; omega
  | ⟨1, _⟩ => show win0_0.index t 1 * 512 + 1 * r.val = (r0_qrow t r).val; rw [h1, r0_qrow_val]; omega
  | ⟨2, _⟩ => show win0_0.index t 2 * 3 + 1 * d.val = d.val; rw [h2]; omega

/-- The key block at point t is rows 512·(t%8) … of window 1's array. -/
theorem r0_yblk_apply (c : Dev nD) (t : Fin cfg0.N) (b : Fin 8) (j : Fin 512) (d : Fin 3) :
    r0_iblk V c 1 t (ix3 b j d) = V c (Pipeline.arrRef spec0 1) (ix3 b (r0_krow t j) d) := by
  obtain ⟨h0, h1, h2⟩ := (r0_index_of t).2.1
  show ((cfg0.win 1).blk t).view.read (Elt F) (V c (Pipeline.arrRef spec0 1)) (ix3 b j d) = _
  rw [View.read_apply]
  show V c (Pipeline.arrRef spec0 1) _ = V c (Pipeline.arrRef spec0 1) _
  congr 1
  funext a
  apply Fin.ext
  match a with
  | ⟨0, _⟩ => show win0_1.index t 0 * 8 + 1 * b.val = b.val; rw [h0]; omega
  | ⟨1, _⟩ => show win0_1.index t 1 * 512 + 1 * j.val = (r0_krow t j).val; rw [h1, r0_krow_val]; omega
  | ⟨2, _⟩ => show win0_1.index t 2 * 3 + 1 * d.val = d.val; rw [h2]; omega

/-- An index of the result array is in point t's block iff each coordinate is in the block's range on its axis. -/
theorem r0_mem_oblk (t : Fin cfg0.N) (i : S8x4096.Idx) :
    i ∈ ((cfg0.win 2).blk t).view.set
      ↔ ∀ a : Fin 2, win0_2.index t a * S8x512.size a ≤ (i a).val ∧ (i a).val < win0_2.index t a * S8x512.size a + S8x512.size a := by
  show i ∈ ((View.whole (Pipeline.arrRef spec0 2)).slice (win0_2.rect t)).set ↔ _
  rw [View.set_slice_whole, Rect.mem_set_unit]
  exact Iff.rfl

/-- What a point with inner coordinate 7 writes back is its block of `G`, when the running minimum there is. -/
theorem r0_flushed_of (c : Dev nD) (G : S8x4096.Idx → Elt F .f32)
    (hG : ∀ t : Fin cfg0.N, t.val % 8 = 7 → ∀ (b : Fin 8) (r : Fin 512), r0_acc V c t.val t.isLt (ix2 b r) = G (ix2 b (r0_qrow t r)))
    (t : Fin cfg0.N) (hf : (cfg0.win 2).flush t = true) :
    (r0_dat V c).flushed 2 t = ((cfg0.win 2).blk t).view.read (Elt F) G := by
  have h7 : t.val % 8 = 7 := (flush0_2 t).mp hf
  obtain ⟨h0, h1⟩ := (r0_index_of t).2.2
  show (cfg0.win 2).cut (grid0.coords t) ((r0_dat V c).after 2 t) = _
  rw [r0_after2]
  funext j
  obtain ⟨b, r, rfl⟩ : ∃ (b : Fin 8) (r : Fin 512), j = ix2 b r := ⟨j 0, j 1, eq_ix2 j⟩
  rw [View.read_apply]
  show r0_acc V c t.val t.isLt (ix2 b r) = G _
  rw [hG t h7 b r]
  congr 1
  funext a
  apply Fin.ext
  match a with
  | ⟨0, _⟩ => show b.val = win0_2.index t 0 * 8 + 1 * b.val; rw [h0]; omega
  | ⟨1, _⟩ => show (r0_qrow t r).val = win0_2.index t 1 * 512 + 1 * r.val; rw [h1, r0_qrow_val]; omega

/-- From what the last inner steps leave in the scratch to the whole result array: if at every point t with t % 8 = 7 the
    running minimum at (b, r) is G at (b, 512·(t/8) + r), the result array after the call is G. -/
theorem r0_result_of (c : Dev nD) (G : S8x4096.Idx → Elt F .f32)
    (hG : ∀ t : Fin cfg0.N, t.val % 8 = 7 → ∀ (b : Fin 8) (r : Fin 512), r0_acc V c t.val t.isLt (ix2 b r) = G (ix2 b (r0_qrow t r))) :
    (r0_dat V c).arrAt 2 cfg0.N = G := by
  refine (r0_dat V c).arrAt_eq_of_cover 2 G (r0_flushed_of V c G hG) fun i => ?_
  -- row n of the 4096 lies in block n / 512, which the point 8 · (n / 512) + 7 writes back
  have hn : (i 1).val < 4096 := (i 1).isLt
  have hb : (i 0).val < 8 := (i 0).isLt
  have ht : 8 * ((i 1).val / 512) + 7 < cfg0.N := Nat.lt_of_lt_of_eq (by omega : 8 * ((i 1).val / 512) + 7 < 64) N_0.symm
  obtain ⟨h0, h1⟩ := (r0_index_of ⟨8 * ((i 1).val / 512) + 7, ht⟩).2.2
  refine ⟨⟨8 * ((i 1).val / 512) + 7, ht⟩, (flush0_2 _).mpr (by show (8 * ((i 1).val / 512) + 7) % 8 = 7; omega), ?_⟩
  rw [r0_mem_oblk]
  intro a
  match a with
  | ⟨0, _⟩ =>
    show win0_2.index ⟨8 * ((i 1).val / 512) + 7, ht⟩ 0 * 8 ≤ (i 0).val ∧ (i 0).val < win0_2.index ⟨8 * ((i 1).val / 512) + 7, ht⟩ 0 * 8 + 8
    rw [h0]; omega
  | ⟨1, _⟩ =>
    show win0_2.index ⟨8 * ((i 1).val / 512) + 7, ht⟩ 1 * 512 ≤ (i 1).val ∧ (i 1).val < win0_2.index ⟨8 * ((i 1).val / 512) + 7, ht⟩ 1 * 512 + 512
    rw [h1]
    show (8 * ((i 1).val / 512) + 7) / 8 * 512 ≤ (i 1).val ∧ (i 1).val < (8 * ((i 1).val / 512) + 7) / 8 * 512 + 512
    omega

end Blocks

end Cert.KernelIdeal.Hand

end
-- ==== Proof.Spec.lean ====
/-
  The Chamfer distance between two clouds of 4096 points of R^3, in 8 batches, as both programs spell it.

  For points x = X[b, n, ·] and y = Y[b, j, ·] the distance is taken through the expansion
  |x - y|^2 = |x|^2 + |y|^2 - 2 x·y, clamped below at 0 before the square root. The nearest-point distance of
  X[b, n] to the cloud Y[b] is the minimum over j of that distance, started from +infinity.
  All on the extended reals; the three float literals 2, 0 and +infinity are kept as their bit patterns.
-/
import Idealize.ShloMosaic.PureOps.Ideal.Laws
import Idealize.ShloMosaic.Lib.ValueIdx

noncomputable section

namespace Chamfer

open Idealize.ShloMosaic Idealize.ShloMosaic.ValueIdx

/-- A cloud array [8, 4096, 3] and a per-point array [8, 4096] of extended reals. -/
abbrev Cloud : Type := (⟨3, ![8, 4096, 3]⟩ : Shape).Idx → EReal
abbrev Rows : Type := (⟨2, ![8, 4096]⟩ : Shape).Idx → EReal

abbrev two : EReal := Ideal.ofBits .f32 0x40000000#32
abbrev zero : EReal := Ideal.ofBits .f32 0x00000000#32
abbrev top : EReal := Ideal.ofBits .f32 0x7F800000#32

/-- |X[b, n]|^2 as the sum of the three squared coordinates. -/
def sq (X : Cloud) (b : Fin 8) (n : Fin 4096) : EReal := ∑ d : Fin 3, X (ix3 b n d) * X (ix3 b n d)

/-- X[b, n] · Y[b, j]. -/
def cross (X Y : Cloud) (b : Fin 8) (n j : Fin 4096) : EReal := ∑ d : Fin 3, X (ix3 b n d) * Y (ix3 b j d)

/-- The distance from X[b, n] to Y[b, j] through the expansion, clamped at 0 under the root. -/
def dist (X Y : Cloud) (b : Fin 8) (n j : Fin 4096) : EReal :=
  Ideal.sqrt (max (sq X b n + sq Y b j - two * cross X Y b n j) zero)

/-- The distance from X[b, n] to the nearest point of Y[b]. -/
def nearestAt (X Y : Cloud) (b : Fin 8) (n : Fin 4096) : EReal :=
  (Finset.univ : Finset (Fin 4096)).fold min top (fun j => dist X Y b n j)

/-- The same as an [8, 4096] array. -/
def nearest (X Y : Cloud) : Rows := fun i => nearestAt X Y (i 0) (i 1)

theorem nearest_apply (X Y : Cloud) (b : Fin 8) (n : Fin 4096) : nearest X Y (ix2 b n) = nearestAt X Y b n := rfl

/-- The expansion is symmetric in its two points: sums and products commute on the extended reals. -/
theorem dist_comm (X Y : Cloud) (b : Fin 8) (n j : Fin 4096) : dist X Y b n j = dist Y X b j n := by
  unfold dist sq cross
  rw [add_comm (∑ d : Fin 3, X (ix3 b n d) * X (ix3 b n d)) (∑ d : Fin 3, Y (ix3 b j d) * Y (ix3 b j d))]
  rw [show (∑ d : Fin 3, X (ix3 b n d) * Y (ix3 b j d)) = ∑ d : Fin 3, Y (ix3 b j d) * X (ix3 b n d) from
    Finset.sum_congr rfl fun d _ => mul_comm (X (ix3 b n d)) (Y (ix3 b j d))]

/-- The minimum over the FIRST cloud's points of the distance to Y[b, j]: the nearest-point distance of Y[b, j] to X[b]. -/
theorem colMin_eq (X Y : Cloud) (b : Fin 8) (j : Fin 4096) :
    (Finset.univ : Finset (Fin 4096)).fold min top (fun n => dist X Y b n j) = nearestAt Y X b j := by
  unfold nearestAt
  exact congrArg (fun f : Fin 4096 → EReal => (Finset.univ : Finset (Fin 4096)).fold min top f) (funext fun n => dist_comm X Y b n j)

/-! ## One tile: a block of 512 query points against a block of 512 key points -/

abbrev Block : Type := (⟨3, ![8, 512, 3]⟩ : Shape).Idx → EReal

/-- The distance, through the same expansion, between point r of block x and point j of block y, in batch b. -/
def blockDist (x y : Block) (b : Fin 8) (r j : Fin 512) : EReal :=
  Ideal.sqrt (max ((∑ d : Fin 3, x (ix3 b r d) * x (ix3 b r d)) + (∑ d : Fin 3, y (ix3 b j d) * y (ix3 b j d))
    - two * ∑ d : Fin 3, x (ix3 b r d) * y (ix3 b j d)) zero)

/-- The least distance from point r of block x to the points of block y, started from +infinity. -/
def tileMin (x y : Block) (b : Fin 8) (r : Fin 512) : EReal :=
  (Finset.univ : Finset (Fin 512)).fold min top (fun j => blockDist x y b r j)

/-! ## The means both programs take on the host -/

theorem red_rows : (⟨2, ![8, 4096]⟩ : Shape).ReducesTo [1] ⟨1, ![8]⟩ := by decide
theorem red_batches : (⟨1, ![8]⟩ : Shape).ReducesTo [0] ⟨0, ![]⟩ := by decide
theorem pos_scalar : 0 < (⟨0, ![]⟩ : Shape).numel := by decide
theorem bcast_scalar : (⟨0, ![]⟩ : Shape).BroadcastsInDim ⟨1, ![8]⟩ (![] : Fin 0 → Fin (⟨1, ![8]⟩ : Shape).rank) := by decide

/-- The mean over the 4096 points of each batch, then the mean over the 8 batches: sums from 0, divided by the
    literals 4096 and 8, as the host lines of both programs spell them. -/
def meanOf (r : FVec Ideal ⟨2, ![8, 4096]⟩ .f32) : FVec Ideal ⟨0, ![]⟩ .f32 :=
  Host.divf (F := Ideal)
    (Host.reduceAdd (F := Ideal)
      (Host.divf (F := Ideal) (Host.reduceAdd (F := Ideal) r (constant (F := Ideal) ⟨0, ![]⟩ .f32 0x00000000#32) red_rows pos_scalar)
        (broadcastInDim ⟨1, ![8]⟩ ![] bcast_scalar (constant (F := Ideal) ⟨0, ![]⟩ .f32 0x45800000#32)))
      (constant (F := Ideal) ⟨0, ![]⟩ .f32 0x00000000#32) red_batches pos_scalar)
    (constant (F := Ideal) ⟨0, ![]⟩ .f32 0x41000000#32)

/-- Half the sum of the two means. -/
def chamferOf (p q : FVec Ideal ⟨0, ![]⟩ .f32) : FVec Ideal ⟨0, ![]⟩ .f32 :=
  mulf (constant (F := Ideal) ⟨0, ![]⟩ .f32 0x3F000000#32) (addf p q)

end Chamfer

end
-- ==== Proof.LibCloudForms.lean ====
/-
  Arrays of rank 3, [m, a, b], read at coordinates.

  A matrix stack's keepdims casts ([m, a] to [m, a, 1] and to [m, 1, a]) and the broadcasts of those columns and rows
  back to [m, a, b] read one operand entry; a sum over the last axis at (k, i) is the sum over d of the entries
  x[k, i, d]; a minimum over the last axis at (k, i) is the fold of min, from the accumulator's value, over the
  entries x[k, i, j]. Sums and minima on the extended reals.
-/
import Idealize.ShloMosaic.PureOps.Ideal.Laws
import Idealize.ShloMosaic.Lib.ValueIdx
import Idealize.ShloMosaic.Lib.Pipeline.Value

noncomputable section

namespace Idealize.ShloMosaic.CloudForms

open Idealize.ShloMosaic Idealize.ShloMosaic.ValueIdx

variable {α : Type}

/-- An [m, a] array cast to [m, a, 1] reads, at (k, i, u), the operand at (k, i), whatever the unit coordinate u. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-- An [m, a] array cast to [m, 1, a] reads, at (k, u, i), the operand at (k, i), whatever the unit coordinate u. -/
theorem shapeCast_ma_m1a_apply {m a : ℕ} (x : (⟨2, ![m, a]⟩ : Shape).Idx → α)
    (h : (⟨2, ![m, a]⟩ : Shape).ShapeCasts ⟨3, ![m, 1, a]⟩) (k : Fin m) (u : Fin 1) (i : Fin a) :
    shapeCast ⟨3, ![m, 1, a]⟩ x h (ix3 k u i) = x (ix2 k i) :=
  shapeCast_apply x h _ _ (by
    have hu : u.val = 0 := by omega
    rw [Shape.rowMajor_val_three, Shape.rowMajor_val_two]
    show k.val * a + i.val = (k.val * 1 + u.val) * a + i.val
    rw [hu, Nat.mul_one, Nat.add_zero])

/-- An [m, a, 1] array broadcast to [m, a, b] reads, at (k, i, j), the operand's one entry (k, i, 0) of that row. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- An [m, 1, b] array broadcast to [m, a, b] reads, at (k, i, j), the operand's one entry (k, 0, j) of that column. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- A sum over the last axis of an [m, a, c] array reads, at (k, i), the sum over d of the entries x[k, i, d]. -/
theorem lastSum_apply {m a c : ℕ} (x : FVec Ideal ⟨3, ![m, a, c]⟩ .f32) (acc : BitVec 32)
    (h : (⟨3, ![m, a, c]⟩ : Shape).Reduces [2] ⟨2, ![m, a]⟩) (hφ : FKind.Formats .f32)
    (hacc : acc = FKind.add.neutral .f32 hφ) (k : Fin m) (i : Fin a) :
    multiReduction .add [2] ⟨2, ![m, a]⟩ x acc h hφ hacc (ix2 k i) = ∑ d : Fin c, x (ix3 k i d) := by
  refine (Ideal.multiReduction_add_single x acc h hφ hacc (ix2 k i)).trans ?_
  show ∑ d : Fin c, x (h.lift (ix2 k i) d) = ∑ d : Fin c, x (ix3 k i d)
  exact Finset.sum_congr rfl fun d _ => congrArg x (funext fun ax => Fin.ext (by
    match ax with
    | ⟨0, _⟩ => rfl
    | ⟨1, _⟩ => rfl
    | ⟨2, _⟩ => rfl))

/-- A reduction by min over the last axis of an [m, a, c] array reads, at (k, i), the fold of min from the
    accumulator's value over the entries x[k, i, j], j : Fin c. -/
theorem lastMin_apply {m a c : ℕ} (x : FVec Ideal ⟨3, ![m, a, c]⟩ .f32) (acc : BitVec 32)
    (h : (⟨3, ![m, a, c]⟩ : Shape).Reduces [2] ⟨2, ![m, a]⟩) (hφ : FKind.Formats .f32)
    (hacc : acc = FKind.minimumf.neutral .f32 hφ) (k : Fin m) (i : Fin a) :
    multiReduction .minimumf [2] ⟨2, ![m, a]⟩ x acc h hφ hacc (ix2 k i)
      = (Finset.univ : Finset (Fin c)).fold min (Ideal.ofBits .f32 acc) (fun j => x (ix3 k i j)) := by
  rw [multiReduction_minimumf_eq_fold]
  refine (h.fold_filter_drop_single _ _ x (ix2 k i)).trans ?_
  have e : (x ∘ h.lift (ix2 k i) : Fin c → EReal) = fun j => x (ix3 k i j) :=
    funext fun j => congrArg x (funext fun ax => Fin.ext (by
      match ax with
      | ⟨0, _⟩ => rfl
      | ⟨1, _⟩ => rfl
      | ⟨2, _⟩ => rfl))
  exact congrArg (fun f : Fin c → EReal => (Finset.univ : Finset (Fin c)).fold min (Ideal.ofBits .f32 acc) f) e

end Idealize.ShloMosaic.CloudForms

end
-- ==== Proof.KI0Tile.lean ====
/-
  One step of the running minimum, read at an entry.

  With the query block x, the key block y and the running minimum s, the body's stored value at (b, r) is the
  minimum of s[b, r] and the least distance from x[b, r] to the 512 points of y[b]; the reset value is +infinity
  everywhere. The sums over the 3 coordinates come from the lane reductions and from the batched product, the
  distance from the pointwise operations, the minimum from the reduction over the key axis.
-/
import proofs.«100684_j1924145348887_1_alg».proof.Proof.Gen.KernelIdeal.Skeleton
import proofs.«100684_j1924145348887_1_alg».proof.Proof.Spec
import proofs.«100684_j1924145348887_1_alg».proof.Proof.LibCloudForms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The reset value is +infinity at every entry. -/
theorem r0_reset_apply (b : Fin 8) (r : Fin 512) : (k0_pay1 (F := Ideal)) (ix2 b r) = Chamfer.top := by
  unfold k0_pay1
  simp only [shapeCast_self]
  rfl

/-! ## The batched product's operand indices, one axis at a time -/

/-- The left operand's batch coordinate is the output's. -/
theorem r0_lhs_0 (i : S8x512x512.Idx) (q : dot_S8x512x3_S8x512x3_S8x512x512_2_2_1_1_0_0.contr.Idx) :
    (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
/-- The left operand's point coordinate is the output's row. -/
theorem r0_lhs_1 (i : S8x512x512.Idx) (q : dot_S8x512x3_S8x512x3_S8x512x512_2_2_1_1_0_0.contr.Idx) :
    (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide), dif_pos (show (1 : Fin S8x512x3.rank) ∈ dot_S8x512x3_S8x512x3_S8x512x512_2_2_1_1_0_0.lhsNonContracting by decide)]
  rfl
/-- The left operand's last coordinate is the contracted one. -/
theorem r0_lhs_2 (i : S8x512x512.Idx) (q : dot_S8x512x3_S8x512x3_S8x512x512_2_2_1_1_0_0.contr.Idx) :
    (dot_S8x512x3_S8x512x3_S8x512x512_2_2_1_1_0_0.lhsIdx i q 2).val = (q ⟨0, by decide⟩).val :=
  dot_S8x512x3_S8x512x3_S8x512x512_2_2_1_1_0_0.lhsIdx_val_of_single rfl i q
/-- The right operand's batch coordinate is the output's. -/
theorem r0_rhs_0 (i : S8x512x512.Idx) (q : dot_S8x512x3_S8x512x3_S8x512x512_2_2_1_1_0_0.contr.Idx) :
    (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
/-- The right operand's point coordinate is the output's column. -/
theorem r0_rhs_1 (i : S8x512x512.Idx) (q : dot_S8x512x3_S8x512x3_S8x512x512_2_2_1_1_0_0.contr.Idx) :
    (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide), dif_pos (show (1 : Fin S8x512x3.rank) ∈ dot_S8x512x3_S8x512x3_S8x512x512_2_2_1_1_0_0.rhsNonContracting by decide)]
  rfl
/-- The right operand's last coordinate is the contracted one. -/
theorem r0_rhs_2 (i : S8x512x512.Idx) (q : dot_S8x512x3_S8x512x3_S8x512x512_2_2_1_1_0_0.contr.Idx) :
    (dot_S8x512x3_S8x512x3_S8x512x512_2_2_1_1_0_0.rhsIdx i q 2).val = (q ⟨0, by decide⟩).val :=
  dot_S8x512x3_S8x512x3_S8x512x512_2_2_1_1_0_0.rhsIdx_val_of_single rfl i q

/-- The batched product into zeros at (b, r, j): the sum over the 3 coordinates of x[b, r, d] * y[b, j, d]. -/
theorem r0_dot_apply (x y : FVec Ideal S8x512x3 .f32) (b : Fin 8) (r j : Fin 512) :
    matmul dot_S8x512x3_S8x512x3_S8x512x512_2_2_1_1_0_0 none x y (constant (F := Ideal) S8x512x512 .f32 0x00000000#32) (ix3 b r j)
      = ∑ d : Fin 3, x (ix3 b r d) * y (ix3 b j d) := by
  simp only [matmul]
  rw [Ideal.matmul_constant_zero_apply, ← Equiv.sum_comp (ValueIdx.contrEquiv1 dot_S8x512x3_S8x512x3_S8x512x512_2_2_1_1_0_0 3 rfl rfl).symm]
  refine Finset.sum_congr rfl fun k _ => ?_
  have hk := ValueIdx.contrEquiv1_symm_val dot_S8x512x3_S8x512x3_S8x512x512_2_2_1_1_0_0 3 rfl rfl k
  have el : dot_S8x512x3_S8x512x3_S8x512x512_2_2_1_1_0_0.lhsIdx (ix3 b r j) ((ValueIdx.contrEquiv1 dot_S8x512x3_S8x512x3_S8x512x512_2_2_1_1_0_0 3 rfl rfl).symm k) = ix3 b r k := funext fun a => Fin.ext (by
    match a with
    | ⟨0, _⟩ => exact r0_lhs_0 _ _
    | ⟨1, _⟩ => exact r0_lhs_1 _ _
    | ⟨2, _⟩ => exact (r0_lhs_2 _ _).trans hk)
  have er : dot_S8x512x3_S8x512x3_S8x512x512_2_2_1_1_0_0.rhsIdx (ix3 b r j) ((ValueIdx.contrEquiv1 dot_S8x512x3_S8x512x3_S8x512x512_2_2_1_1_0_0 3 rfl rfl).symm k) = ix3 b j k := funext fun a => Fin.ext (by
    match a with
    | ⟨0, _⟩ => exact r0_rhs_0 _ _
    | ⟨1, _⟩ => exact r0_rhs_1 _ _
    | ⟨2, _⟩ => exact (r0_rhs_2 _ _).trans hk)
  rw [el, er]

/-- The stored value at (b, r): the running minimum there against the tile's row minimum. -/
theorem r0_step_apply (x y : Vec Ideal S8x512x3 .f32) (s : Vec Ideal S8x512 .f32) (b : Fin 8) (r : Fin 512) :
    (k0_pay2 (F := Ideal) x y s) (ix2 b r) = min (s (ix2 b r)) (Chamfer.tileMin x y b r) := by
  unfold k0_pay2
  simp only [shapeCast_self]
  refine (minimumf_apply (φ := .f32) s _ (ix2 b r)).trans ?_
  refine congrArg (min _) ?_
  refine (CloudForms.lastMin_apply _ _ reduces_S8x512x512_S8x512 _ _ b r).trans ?_
  unfold Chamfer.tileMin
  refine congrArg (fun f : Fin 512 → EReal => (Finset.univ : Finset (Fin 512)).fold min Chamfer.top f) (funext fun j => ?_)
  unfold Chamfer.blockDist
  show Ideal.sqrt (maximumf (F := Ideal) (φ := .f32) _ _ (ix3 b r j)) = _
  rw [maximumf_apply, subf_apply, addf_apply, mulf_apply, broadcast_apply, broadcast_apply]
  rw [CloudForms.broadcastTo_ma1_mab_apply, CloudForms.broadcastTo_m1b_mab_apply, CloudForms.shapeCast_ma_ma1_apply,
    CloudForms.shapeCast_ma_m1a_apply, r0_dot_apply]
  refine congrArg (fun t : EReal => Ideal.sqrt (max (t - Chamfer.two * ∑ d : Fin 3, x (ix3 b r d) * y (ix3 b j d)) Chamfer.zero)) ?_
  refine congrArg₂ (· + ·) ?_ ?_
  · exact CloudForms.lastSum_apply (mulf x x) _ reduces_S8x512x3_S8x512 _ _ b r
  · exact CloudForms.lastSum_apply (mulf y y) _ reduces_S8x512x3_S8x512 _ _ b j

end Cert.KernelIdeal.Hand

end
-- ==== Proof.LibMinForms.lean ====
/-
  Row and column minima of a matrix, read at coordinates.

  A reduction by `min` of an `a × b` matrix over its second axis is, at row `p`, the fold of `min` from the
  accumulator's value over the row's entries `x[p, k]`; over its first axis it is, at column `q`, the fold of
  `min` over the column's entries `x[k, q]`. A fold of `min` is determined by its lower bounds: `c` lies
  below it exactly when `c` lies below the starting value and below every entry. All on the extended reals.
-/
import Idealize.ShloMosaic.PureOps.Ideal.Laws
import Idealize.ShloMosaic.Lib.ValueIdx

noncomputable section

namespace Idealize.ShloMosaic.MinForms

open Idealize.ShloMosaic Idealize.ShloMosaic.ValueIdx

/-- A reduction by `min` of an `a × b` matrix over its second axis reads, at `p`, the fold of `min` from the
    accumulator's value over the entries `x[p, k]` of row `p`, `k : Fin b`. -/
theorem rowMin_apply {a b : ℕ} (x : FVec Ideal ⟨2, ![a, b]⟩ .f32) (acc : BitVec 32) (h : (⟨2, ![a, b]⟩ : Shape).Reduces [1] ⟨1, ![a]⟩)
    (hφ : FKind.Formats .f32) (hacc : acc = FKind.minimumf.neutral .f32 hφ) (p : Fin a) :
    multiReduction .minimumf [1] ⟨1, ![a]⟩ x acc h hφ hacc (ix1 p)
      = (Finset.univ : Finset (Fin b)).fold min (Ideal.ofBits .f32 acc) (fun k => x (ix2 p k)) := by
  rw [multiReduction_minimumf_eq_fold]
  refine (h.fold_filter_drop_single _ _ x (ix1 p)).trans ?_
  have e : (x ∘ h.lift (ix1 p) : Fin b → EReal) = fun k => x (ix2 p k) :=
    funext fun k => congrArg x (funext fun d => Fin.ext (by
      match d with
      | ⟨0, _⟩ => rfl
      | ⟨1, _⟩ => rfl))
  exact congrArg (fun f : Fin b → EReal => (Finset.univ : Finset (Fin b)).fold min (Ideal.ofBits .f32 acc) f) e

/-- A reduction by `min` of an `a × b` matrix over its first axis reads, at `q`, the fold of `min` from the
    accumulator's value over the entries `x[k, q]` of column `q`, `k : Fin a`. -/
theorem colMin_apply {a b : ℕ} (x : FVec Ideal ⟨2, ![a, b]⟩ .f32) (acc : BitVec 32) (h : (⟨2, ![a, b]⟩ : Shape).Reduces [0] ⟨1, ![b]⟩)
    (hφ : FKind.Formats .f32) (hacc : acc = FKind.minimumf.neutral .f32 hφ) (q : Fin b) :
    multiReduction .minimumf [0] ⟨1, ![b]⟩ x acc h hφ hacc (ix1 q)
      = (Finset.univ : Finset (Fin a)).fold min (Ideal.ofBits .f32 acc) (fun k => x (ix2 k q)) := by
  rw [multiReduction_minimumf_eq_fold]
  refine (h.fold_filter_drop_single _ _ x (ix1 q)).trans ?_
  have e : (x ∘ h.lift (ix1 q) : Fin a → EReal) = fun k => x (ix2 k q) :=
    funext fun k => congrArg x (funext fun d => Fin.ext (by
      match d with
      | ⟨0, _⟩ => rfl
      | ⟨1, _⟩ => rfl))
  exact congrArg (fun f : Fin a → EReal => (Finset.univ : Finset (Fin a)).fold min (Ideal.ofBits .f32 acc) f) e

/-- Lower bounds of a fold of `min` over a whole finite type: `c` is below the fold exactly when it is below the
    starting value and below every entry. -/
theorem le_fold_min_univ {α ι : Type} [LinearOrder α] [Fintype ι] (c b : α) (f : ι → α) :
    c ≤ (Finset.univ : Finset ι).fold min b f ↔ c ≤ b ∧ ∀ k, c ≤ f k := by
  rw [Finset.le_fold_min]
  exact and_congr Iff.rfl ⟨fun h k => h k (Finset.mem_univ k), fun h k _ => h k⟩

/-- A value with the lower bounds of a fold of `min` is that fold. -/
theorem eq_fold_min_univ {α ι : Type} [LinearOrder α] [Fintype ι] (v b : α) (f : ι → α)
    (h : ∀ c, c ≤ v ↔ c ≤ b ∧ ∀ k, c ≤ f k) : v = (Finset.univ : Finset ι).fold min b f :=
  eq_of_forall_le_iff fun c => (h c).trans (le_fold_min_univ c b f).symm

end Idealize.ShloMosaic.MinForms

end
-- ==== Proof.KI0Value.lean ====
/-
  The first row-minimum call's result array.

  Point t = 8 · outer + inner reads query block `outer` and key block `inner`; after it the scratch holds, at (b, r),
  the least distance from query point 512 · outer + r to the key points of blocks 0 … inner. The last inner step writes
  that block back as rows 512 · outer … 512 · outer + 511 of the result, so the result at (b, n) is the least distance
  from query point n to all 4096 key points.

  A minimum is carried here by its lower bounds: c lies below a fold of `min` exactly when it lies below the starting
  value and below every entry. The running minimum's lower bounds are found by induction on the point, and at the last
  inner step they are the lower bounds of the fold over all 4096 key points.
-/
import proofs.«100684_j1924145348887_1_alg».proof.Proof.KI0Data
import proofs.«100684_j1924145348887_1_alg».proof.Proof.KI0Blocks
import proofs.«100684_j1924145348887_1_alg».proof.Proof.KI0Tile
import proofs.«100684_j1924145348887_1_alg».proof.Proof.LibMinForms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The two clouds as the call finds them: the query points and the key points. -/
abbrev r0_cloudX (c : Dev nD) : Chamfer.Cloud := V c (Pipeline.arrRef spec0 0)
abbrev r0_cloudY (c : Dev nD) : Chamfer.Cloud := V c (Pipeline.arrRef spec0 1)

/-- The query block and the key block the body is handed at a point. -/
abbrev r0_qblk (c : Dev nD) (t : Fin cfg0.N) : Vec Ideal S8x512x3 .f32 := r0_iblk V c 0 t
abbrev r0_kblk (c : Dev nD) (t : Fin cfg0.N) : Vec Ideal S8x512x3 .f32 := r0_iblk V c 1 t

/-- Inside a tile the distance between entry r of the query block and entry j of the key block is the distance
    between the clouds' points those entries are. -/
theorem r0_blockDist_eq (c : Dev nD) (t : Fin cfg0.N) (b : Fin 8) (r j : Fin 512) :
    Chamfer.blockDist (r0_qblk V c t) (r0_kblk V c t) b r j
      = Chamfer.dist (r0_cloudX V c) (r0_cloudY V c) b (r0_qrow t r) (r0_krow t j) := by
  have ex : ∀ d : Fin 3, r0_qblk V c t (ix3 b r d) = r0_cloudX V c (ix3 b (r0_qrow t r) d) :=
    fun d => r0_xblk_apply V c t b r d
  have ey : ∀ d : Fin 3, r0_kblk V c t (ix3 b j d) = r0_cloudY V c (ix3 b (r0_krow t j) d) :=
    fun d => r0_yblk_apply V c t b j d
  unfold Chamfer.blockDist Chamfer.dist Chamfer.sq Chamfer.cross
  simp only [ex, ey]

/-- The lower bounds of a tile's row minimum: c lies below it exactly when it lies below +infinity and below the
    distance to every key point of the tile's key block, the points m with m / 512 = inner. -/
theorem r0_tile_bounds (c : Dev nD) (t : Fin cfg0.N) (b : Fin 8) (r : Fin 512) (c' : EReal) :
    c' ≤ Chamfer.tileMin (r0_qblk V c t) (r0_kblk V c t) b r
      ↔ c' ≤ Chamfer.top ∧ ∀ m : Fin 4096, m.val / 512 = t.val % 8 →
          c' ≤ Chamfer.dist (r0_cloudX V c) (r0_cloudY V c) b (r0_qrow t r) m := by
  unfold Chamfer.tileMin
  rw [MinForms.le_fold_min_univ]
  refine and_congr Iff.rfl ⟨fun h m hm => ?_, fun h j => ?_⟩
  · have hlt : m.val % 512 < 512 := Nat.mod_lt _ (by decide)
    have e : r0_krow t ⟨m.val % 512, hlt⟩ = m :=
      Fin.ext (by rw [r0_krow_val]; show 512 * (t.val % 8) + m.val % 512 = m.val; omega)
    have h1 := h ⟨m.val % 512, hlt⟩
    rw [r0_blockDist_eq V c t b r ⟨m.val % 512, hlt⟩, e] at h1
    exact h1
  · rw [r0_blockDist_eq V c t b r j]
    exact h (r0_krow t j) (by rw [r0_krow_val]; have := j.isLt; omega)

/-- The running minimum after point n = 8 · outer + inner, by its lower bounds: c lies below its entry (b, r) exactly
    when it lies below +infinity and below the distance from query point 512 · outer + r to every key point of the key
    blocks 0 … inner, the points m with m / 512 ≤ inner. By induction on the point: at inner = 0 the minimum restarts
    from +infinity and meets key block 0; at a later inner step it continues from the point before, which has the same
    outer coordinate, and meets key block `inner`. -/
theorem r0_acc_bounds (c : Dev nD) (n : ℕ) : ∀ (hn : n < cfg0.N) (b : Fin 8) (r : Fin 512) (c' : EReal),
    c' ≤ r0_acc V c n hn (ix2 b r)
      ↔ c' ≤ Chamfer.top ∧ ∀ m : Fin 4096, m.val / 512 ≤ n % 8 →
          c' ≤ Chamfer.dist (r0_cloudX V c) (r0_cloudY V c) b (r0_qrow ⟨n, hn⟩ r) m := by
  induction n using Nat.strong_induction_on with
  | _ n ih =>
    intro hn b r c'
    by_cases h0 : n % 8 = 0
    · have e : r0_acc V c n hn (ix2 b r)
          = min Chamfer.top (Chamfer.tileMin (r0_qblk V c ⟨n, hn⟩) (r0_kblk V c ⟨n, hn⟩) b r) := by
        refine (congrFun (r0_acc_first V c ⟨n, hn⟩ h0) (ix2 b r)).trans ?_
        refine (r0_step_apply (r0_qblk V c ⟨n, hn⟩) (r0_kblk V c ⟨n, hn⟩) (k0_pay1 (F := Ideal)) b r).trans ?_
        rw [r0_reset_apply]
      rw [e, le_min_iff, r0_tile_bounds V c ⟨n, hn⟩ b r c']
      constructor
      · rintro ⟨h1, _, h2⟩
        exact ⟨h1, fun m hm => h2 m (by show m.val / 512 = n % 8; omega)⟩
      · rintro ⟨h1, h2⟩
        exact ⟨h1, h1, fun m hm => h2 m (by have hm' : m.val / 512 = n % 8 := hm; omega)⟩
    · have hn' : n - 1 < cfg0.N := Nat.lt_of_le_of_lt (Nat.sub_le _ _) hn
      have e : r0_acc V c n hn (ix2 b r)
          = min (r0_acc V c (n - 1) hn' (ix2 b r)) (Chamfer.tileMin (r0_qblk V c ⟨n, hn⟩) (r0_kblk V c ⟨n, hn⟩) b r) := by
        refine (congrFun (r0_acc_step V c ⟨n, hn⟩ h0) (ix2 b r)).trans ?_
        exact r0_step_apply (r0_qblk V c ⟨n, hn⟩) (r0_kblk V c ⟨n, hn⟩) (r0_acc V c (n - 1) hn') b r
      have eq : r0_qrow ⟨n - 1, hn'⟩ r = r0_qrow ⟨n, hn⟩ r :=
        Fin.ext (by rw [r0_qrow_val, r0_qrow_val]; show 512 * ((n - 1) / 8) + r.val = 512 * (n / 8) + r.val; omega)
      rw [e, le_min_iff, ih (n - 1) (by omega) hn' b r c', r0_tile_bounds V c ⟨n, hn⟩ b r c', eq]
      constructor
      · rintro ⟨⟨h1, h2⟩, _, h3⟩
        refine ⟨h1, fun m hm => ?_⟩
        by_cases hc : m.val / 512 = n % 8
        · exact h3 m hc
        · exact h2 m (by omega)
      · rintro ⟨h1, h2⟩
        exact ⟨⟨h1, fun m hm => h2 m (by omega)⟩, h1, fun m hm => h2 m (by have hm' : m.val / 512 = n % 8 := hm; omega)⟩

/-- At the last inner step the running minimum at (b, r) has met all 4096 key points: it is the nearest-point distance
    of query point 512 · outer + r. -/
theorem r0_acc_last (c : Dev nD) (t : Fin cfg0.N) (h7 : t.val % 8 = 7) (b : Fin 8) (r : Fin 512) :
    r0_acc V c t.val t.isLt (ix2 b r)
      = Chamfer.nearest (r0_cloudX V c) (r0_cloudY V c) (ix2 b (r0_qrow t r)) := by
  rw [Chamfer.nearest_apply]
  unfold Chamfer.nearestAt
  refine MinForms.eq_fold_min_univ _ _ _ fun c' => ?_
  rw [r0_acc_bounds V c t.val t.isLt b r c']
  exact and_congr Iff.rfl ⟨fun h m => h m (by have := m.isLt; omega), fun h m _ => h m⟩

/-- After the call its result array is the nearest-point distance from each point of the first operand to the second operand's cloud. -/
theorem r0_result (c : Dev nD) :
    (r0_dat (F := Ideal) V c).arrAt 2 cfg0.N = Chamfer.nearest (V c (Pipeline.arrRef spec0 0)) (V c (Pipeline.arrRef spec0 1)) :=
  r0_result_of V c (Chamfer.nearest (V c (Pipeline.arrRef spec0 0)) (V c (Pipeline.arrRef spec0 1)))
    (fun t h7 b r => r0_acc_last V c t h7 b r)

end Cert.KernelIdeal.Hand

end
-- ==== Proof.KITail.lean ====
/-
  The host lines after the two calls: the three results as means of the two result arrays.

  From whatever the two result arrays hold, the lines sum each over its 4096 points and divide by 4096, sum over the
  8 batches and divide by 8, and return the second array's mean, the first array's mean, and half their sum.
-/
import proofs.«100684_j1924145348887_1_alg».proof.Proof.Gen.KernelIdeal.Launch
import proofs.«100684_j1924145348887_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

/-- The first returned value is the mean of the second call's result array. -/
theorem tail_second : StableHlo.after (hostOps2 (F := Ideal)) W (Proc.devRef .tc main_v11) = Chamfer.meanOf (W (Proc.devRef .tc main_v1)) := by
  after_results
  rfl

/-- The second returned value is the mean of the first call's result array. -/
theorem tail_first : StableHlo.after (hostOps2 (F := Ideal)) W (Proc.devRef .tc main_v9) = Chamfer.meanOf (W (Proc.devRef .tc main_v0)) := by
  after_results
  rfl

/-- The third is half the sum of the two means. -/
theorem tail_half : StableHlo.after (hostOps2 (F := Ideal)) W (Proc.devRef .tc main_v13)
    = Chamfer.chamferOf (Chamfer.meanOf (W (Proc.devRef .tc main_v0))) (Chamfer.meanOf (W (Proc.devRef .tc main_v1))) := by
  after_results
  rfl

end Cert.KernelIdeal.Hand

end
-- ==== Proof.KIValues.lean ====
/-
  The kernel program's three results.

  The first call's result array is the nearest-point distance from each point of the first cloud to the second cloud,
  the second call's the same with the clouds exchanged; the host lines return the mean of the second, the mean of the
  first, and half their sum.
-/
import proofs.«100684_j1924145348887_1_alg».proof.Proof.KIRun
import proofs.«100684_j1924145348887_1_alg».proof.Proof.KI0Value
import proofs.«100684_j1924145348887_1_alg».proof.Proof.KI1Value
import proofs.«100684_j1924145348887_1_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- After both calls the first result array holds the distances from the first cloud's points to the second cloud. -/
theorem first_result (c : Dev nD) :
    W2 m c (Proc.devRef .tc main_v0)
      = Chamfer.nearest (m ((c.tc : Thread nD τ).loc main_arg0)) (m ((c.tc : Thread nD τ).loc main_arg1)) :=
  (W2_main_v0 m c).trans (r0_result (E0 m) c)

/-- And the second the distances from the second cloud's points to the first cloud. -/
theorem second_result (c : Dev nD) :
    W2 m c (Proc.devRef .tc main_v1)
      = Chamfer.nearest (m ((c.tc : Thread nD τ).loc main_arg1)) (m ((c.tc : Thread nD τ).loc main_arg0)) := by
  refine ((W2_arr m c 2).trans (r1_result (E1 m) c)).trans ?_
  rw [show E1 m c (Pipeline.arrRef spec1 0) = m ((c.tc : Thread nD τ).loc main_arg1) from E1_main_arg1 m c,
    show E1 m c (Pipeline.arrRef spec1 1) = m ((c.tc : Thread nD τ).loc main_arg0) from E1_main_arg0 m c]

/-- Every weakly fair execution of the kernel program ends with its three results at the means of the nearest-point
    distances of the argument clouds, and the arguments unchanged. -/
theorem values : θ_run (defs (F := Ideal)) (onTc (τ := τ) (main (F := Ideal))) ⟨m, fun _ => 0, ρ⟩ (fun r => ∀ c : Dev nD,
      r.2.mem ((c.tc : Thread nD τ).loc main_v11)
          = Chamfer.meanOf (Chamfer.nearest (m ((c.tc : Thread nD τ).loc main_arg1)) (m ((c.tc : Thread nD τ).loc main_arg0)))
      ∧ r.2.mem ((c.tc : Thread nD τ).loc main_v9)
          = Chamfer.meanOf (Chamfer.nearest (m ((c.tc : Thread nD τ).loc main_arg0)) (m ((c.tc : Thread nD τ).loc main_arg1)))
      ∧ r.2.mem ((c.tc : Thread nD τ).loc main_v13)
          = Chamfer.chamferOf (Chamfer.meanOf (Chamfer.nearest (m ((c.tc : Thread nD τ).loc main_arg0)) (m ((c.tc : Thread nD τ).loc main_arg1))))
              (Chamfer.meanOf (Chamfer.nearest (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v11 (by decide))).trans ((tail_second (W2 m c)).trans (by rw [second_result])),
     (h c _ (mem_uc main_v9 (by decide))).trans ((tail_first (W2 m c)).trans (by rw [first_result])),
     (h c _ (mem_uc main_v13 (by decide))).trans ((tail_half (W2 m c)).trans (by rw [first_result, second_result])),
     (h c _ (mem_uc main_arg0 (by decide))).trans (W3_main_arg0 m c),
     (h c _ (mem_uc main_arg1 (by decide))).trans (W3_main_arg1 m c)⟩) (run_all m ρ)

end Cert.KernelIdeal.Hand

end
-- ==== Proof.RefValue.lean ====
/-
  What the reference computes, read through its host lines.

  The pairwise distances d[b, n, j] are taken through the expansion; `complete` is the mean of the row minima
  (over j), `accuracy` the mean of the column minima (over n), and the third result half their sum. A column minimum
  of d is a row minimum with the two clouds exchanged, because the expansion is symmetric.
-/
import proofs.«100684_j1924145348887_1_alg».proof.Proof.Gen.ReferenceIdeal.Read
import proofs.«100684_j1924145348887_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-! ## The distance array, entry by entry -/

/-- The squared norms, summed from 0 over the three coordinates: entry (b, n) is |X[b, n]|^2. -/
theorem sqNorm0_at (X : Chamfer.Cloud) (b : Fin 8) (n : Fin 4096) :
    Read.val_main_v1 (F := Ideal) X (ix2 b n) = Chamfer.sq X b n := by
  rw [Read.val_main_v1_apply, Read.val_main_cst_apply, Ideal.ofBits_def, Ideal.ofBits_zero_f32, zero_add]
  unfold Chamfer.sq
  refine Finset.sum_congr rfl fun d _ => ?_
  rw [Read.val_main_v0_apply, Ideal.mulf_def]
  rw [show Read.idx_main_v1 (ix2 b n) d = ix3 b n d from
    funext fun a => by match a with | ⟨0, _⟩ => rfl | ⟨1, _⟩ => rfl | ⟨2, _⟩ => rfl]

/-- The same for the second argument. -/
theorem sqNorm1_at (Y : Chamfer.Cloud) (b : Fin 8) (j : Fin 4096) :
    Read.val_main_v3 (F := Ideal) Y (ix2 b j) = Chamfer.sq Y b j := by
  rw [Read.val_main_v3_apply, Read.val_main_cst_0_apply, Ideal.ofBits_def, Ideal.ofBits_zero_f32, zero_add]
  unfold Chamfer.sq
  refine Finset.sum_congr rfl fun d _ => ?_
  rw [Read.val_main_v2_apply, Ideal.mulf_def]
  rw [show Read.idx_main_v3 (ix2 b j) d = ix3 b j d from
    funext fun a => by match a with | ⟨0, _⟩ => rfl | ⟨1, _⟩ => rfl | ⟨2, _⟩ => rfl]

/-- The contraction over the coordinate axis, batched over b: entry (b, n, j) is X[b, n] · Y[b, j]. -/
theorem cross_at (X Y : Chamfer.Cloud) (b : Fin 8) (n j : Fin 4096) :
    Read.val_main_v4 (F := Ideal) X Y (ix3 b n j) = Chamfer.cross X Y b n j := by
  rw [Read.val_main_v4_apply]
  unfold Chamfer.cross
  refine Finset.sum_congr rfl fun d _ => ?_
  rw [show Read.lidx_main_v4 (ix3 b n j) d = ix3 b n d from
      funext fun a => by match a with | ⟨0, _⟩ => rfl | ⟨1, _⟩ => rfl | ⟨2, _⟩ => rfl,
    show Read.ridx_main_v4 (ix3 b n j) d = ix3 b j d from
      funext fun a => by match a with | ⟨0, _⟩ => rfl | ⟨1, _⟩ => rfl | ⟨2, _⟩ => rfl]

/-- |X[b, n]|^2 spread along j. -/
theorem sqRow_at (X : Chamfer.Cloud) (b : Fin 8) (n j : Fin 4096) :
    Read.val_main_v7 (F := Ideal) X (ix3 b n j) = Chamfer.sq X b n := by
  rw [Read.val_main_v7_apply, Read.val_main_v5_apply]
  refine Eq.trans (congrArg (Read.val_main_v1 (F := Ideal) X) ?_) (sqNorm0_at X b n)
  exact funext fun a => by match a with | ⟨0, _⟩ => rfl | ⟨1, _⟩ => rfl

/-- |Y[b, j]|^2 spread along n. -/
theorem sqCol_at (Y : Chamfer.Cloud) (b : Fin 8) (n j : Fin 4096) :
    Read.val_main_v8 (F := Ideal) Y (ix3 b n j) = Chamfer.sq Y b j := by
  rw [Read.val_main_v8_apply, Read.val_main_v6_apply]
  refine Eq.trans (congrArg (Read.val_main_v3 (F := Ideal) Y) ?_) (sqNorm1_at Y b j)
  exact funext fun a => by match a with | ⟨0, _⟩ => rfl | ⟨1, _⟩ => rfl

/-- Entry (b, n, j) of the distance array is the distance from X[b, n] to Y[b, j] through the expansion. -/
theorem dist_apply (X Y : Chamfer.Cloud) (b : Fin 8) (n j : Fin 4096) :
    Read.val_main_v15 (F := Ideal) X Y (ix3 b n j) = Chamfer.dist X Y b n j := by
  rw [Read.val_main_v15_apply, Read.val_main_v14_apply, Read.val_main_v12_apply, Read.val_main_v9_apply,
    Read.val_main_v11_apply, Read.val_main_v13_apply, Read.val_main_v10_apply, Read.val_main_cst_1_apply,
    Read.val_main_cst_2_apply, sqRow_at, sqCol_at, cross_at]
  rfl

/-! ## The two minima -/

/-- Over the result index (b, n) of the reduction along j, the source index with j put back is (b, n, j). -/
theorem lift_last (h : S8x4096x4096.Reduces [2] S8x4096) (b : Fin 8) (n : Fin 4096) (k : Fin (S8x4096x4096.size 2)) :
    h.lift (ix2 b n) k = ix3 b n (⟨k.val, k.isLt⟩ : Fin 4096) :=
  funext fun a => Fin.ext (by match a with | ⟨0, _⟩ => rfl | ⟨1, _⟩ => rfl | ⟨2, _⟩ => rfl)

/-- Over the result index (b, j) of the reduction along n, the source index with n put back is (b, n, j). -/
theorem lift_mid (h : S8x4096x4096.Reduces [1] S8x4096) (b : Fin 8) (j : Fin 4096) (k : Fin (S8x4096x4096.size 1)) :
    h.lift (ix2 b j) k = ix3 b (⟨k.val, k.isLt⟩ : Fin 4096) j :=
  funext fun a => Fin.ext (by match a with | ⟨0, _⟩ => rfl | ⟨1, _⟩ => rfl | ⟨2, _⟩ => rfl)

/-- The minimum along j from +infinity, at (b, n), of an array whose entries are the distances: the distance from
    X[b, n] to the nearest point of Y[b]. It holds of any array with those entries. -/
theorem rowMin_at (X Y : Chamfer.Cloud) (D : S8x4096x4096.Idx → Ideal .f32)
    (hD : ∀ b n j, D (ix3 b n j) = Chamfer.dist X Y b n j) (b : Fin 8) (n : Fin 4096) :
    Host.reduce FloatOps.minimumf D (Read.val_main_cst_3 (F := Ideal)) reducesTo_S8x4096x4096_S8x4096_d2 h_S_ (ix2 b n)
      = Chamfer.nearestAt X Y b n := by
  have h : S8x4096x4096.Reduces [2] S8x4096 := by decide
  rw [Host.reduce_eq_fold_single FloatOps.minimumf D _ reducesTo_S8x4096x4096_S8x4096_d2 h h_S_]
  have hf : (D ∘ h.lift (ix2 b n)) = fun j : Fin 4096 => Chamfer.dist X Y b n j :=
    funext fun k => (congrArg D (lift_last h b n k)).trans (hD b n ⟨k.val, k.isLt⟩)
  exact congrArg (fun f => Finset.fold min Chamfer.top f (Finset.univ : Finset (Fin 4096))) hf

/-- The minimum along n from +infinity, at (b, j): by the symmetry of the expansion, the distance from Y[b, j] to the
    nearest point of X[b]. -/
theorem colMin_at (X Y : Chamfer.Cloud) (D : S8x4096x4096.Idx → Ideal .f32)
    (hD : ∀ b n j, D (ix3 b n j) = Chamfer.dist X Y b n j) (b : Fin 8) (j : Fin 4096) :
    Host.reduce FloatOps.minimumf D (Read.val_main_cst_6 (F := Ideal)) reducesTo_S8x4096x4096_S8x4096_d1 h_S_ (ix2 b j)
      = Chamfer.nearestAt Y X b j := by
  have h : S8x4096x4096.Reduces [1] S8x4096 := by decide
  rw [Host.reduce_eq_fold_single FloatOps.minimumf D _ reducesTo_S8x4096x4096_S8x4096_d1 h h_S_, ← Chamfer.colMin_eq X Y b j]
  have hf : (D ∘ h.lift (ix2 b j)) = fun n : Fin 4096 => Chamfer.dist X Y b n j :=
    funext fun k => (congrArg D (lift_mid h b j k)).trans (hD b ⟨k.val, k.isLt⟩ j)
  exact congrArg (fun f => Finset.fold min Chamfer.top f (Finset.univ : Finset (Fin 4096))) hf

/-- The row minima of the distance array are the nearest-point distances of the first cloud to the second. -/
theorem rowmin_eq (X Y : Chamfer.Cloud) : Read.val_main_v16 (F := Ideal) X Y = Chamfer.nearest X Y := by
  unfold Read.val_main_v16
  funext i
  obtain ⟨b, n, rfl⟩ : ∃ (b : Fin 8) (n : Fin 4096), i = ix2 b n := ⟨i 0, i 1, eq_ix2 i⟩
  exact rowMin_at X Y _ (dist_apply X Y) b n

/-- The column minima are the nearest-point distances of the second cloud to the first. -/
theorem colmin_eq (X Y : Chamfer.Cloud) : Read.val_main_v20 (F := Ideal) X Y = Chamfer.nearest Y X := by
  unfold Read.val_main_v20
  funext i
  obtain ⟨b, j, rfl⟩ : ∃ (b : Fin 8) (j : Fin 4096), i = ix2 b j := ⟨i 0, i 1, eq_ix2 i⟩
  exact colMin_at X Y _ (dist_apply X Y) b j

/-! ## The means and the assembly -/

/-- The host lines after the row minima are the two means. -/
theorem mean_rows (X Y : Chamfer.Cloud) :
    Read.val_main_v25 (F := Ideal) X Y = Chamfer.meanOf (Read.val_main_v16 (F := Ideal) X Y) := by
  unfold Read.val_main_v25 Read.val_main_v24 Read.val_main_v19 Read.val_main_v17 Read.val_main_v18
    Read.val_main_cst_4 Read.val_main_cst_5 Read.val_main_cst_9 Read.val_main_cst_10 Chamfer.meanOf
  generalize Read.val_main_v16 (F := Ideal) X Y = r
  rfl

/-- The host lines after the column minima are the same two means. -/
theorem mean_cols (X Y : Chamfer.Cloud) :
    Read.val_main_v27 (F := Ideal) X Y = Chamfer.meanOf (Read.val_main_v20 (F := Ideal) X Y) := by
  unfold Read.val_main_v27 Read.val_main_v26 Read.val_main_v23 Read.val_main_v21 Read.val_main_v22
    Read.val_main_cst_7 Read.val_main_cst_8 Read.val_main_cst_11 Read.val_main_cst_12 Chamfer.meanOf
  generalize Read.val_main_v20 (F := Ideal) X Y = r
  rfl

/-- The third result is half the sum of the other two. -/
theorem half_sum (X Y : Chamfer.Cloud) :
    Read.val_main_v29 (F := Ideal) X Y
      = Chamfer.chamferOf (Read.val_main_v25 (F := Ideal) X Y) (Read.val_main_v27 (F := Ideal) X Y) := by
  unfold Read.val_main_v29 Read.val_main_v28 Read.val_main_cst_13 Chamfer.chamferOf
  generalize Read.val_main_v25 (F := Ideal) X Y = p
  generalize Read.val_main_v27 (F := Ideal) X Y = q
  rfl

/-- The second result: the mean nearest-point distance of the first cloud to the second. -/
theorem v25_eq (X Y : Chamfer.Cloud) :
    Read.val_main_v25 (F := Ideal) X Y = Chamfer.meanOf (Chamfer.nearest X Y) := by
  rw [mean_rows, rowmin_eq]

/-- The first result: the mean nearest-point distance of the second cloud to the first. -/
theorem v27_eq (X Y : Chamfer.Cloud) :
    Read.val_main_v27 (F := Ideal) X Y = Chamfer.meanOf (Chamfer.nearest Y X) := by
  rw [mean_cols, colmin_eq]

/-- The third result: half the sum of the two means. -/
theorem v29_eq (X Y : Chamfer.Cloud) :
    Read.val_main_v29 (F := Ideal) X Y
      = Chamfer.chamferOf (Chamfer.meanOf (Chamfer.nearest X Y)) (Chamfer.meanOf (Chamfer.nearest Y X)) := by
  rw [half_sum, v25_eq, v27_eq]

/-- Every weakly fair execution of the reference ends with its three results at the means of the nearest-point
    distances of the argument clouds, and the arguments unchanged. -/
theorem run_values (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v27)
          = Chamfer.meanOf (Chamfer.nearest (m ((c.tc : Thread nD τ).loc main_arg1)) (m ((c.tc : Thread nD τ).loc main_arg0)))
      ∧ r.2.mem ((c.tc : Thread nD τ).loc main_v25)
          = Chamfer.meanOf (Chamfer.nearest (m ((c.tc : Thread nD τ).loc main_arg0)) (m ((c.tc : Thread nD τ).loc main_arg1)))
      ∧ r.2.mem ((c.tc : Thread nD τ).loc main_v29)
          = Chamfer.chamferOf (Chamfer.meanOf (Chamfer.nearest (m ((c.tc : Thread nD τ).loc main_arg0)) (m ((c.tc : Thread nD τ).loc main_arg1))))
              (Chamfer.meanOf (Chamfer.nearest (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
      ⟨by rw [(h c).1, Read.val_main_v27_eq, v27_eq],
       by rw [(h c).2.1, Read.val_main_v25_eq, v25_eq],
       by rw [(h c).2.2.1, Read.val_main_v29_eq, v29_eq],
       (h c).2.2.2.1, (h c).2.2.2.2⟩)
    (Cert.ReferenceIdeal.Value.run (F := Ideal) m ρ)

end Cert.ReferenceIdeal.RefValue

end
-- ==== Proof.lean ====
/-
  Chamfer loss: a tiled running-minimum kernel, called once per direction, against the plain formula.

  Both programs take the distance between a point x of one cloud and a point y of the other through
  |x|^2 + |y|^2 - 2 x·y, clamped at 0 under the square root. The reference forms all 4096 × 4096 distances per batch
  and takes row minima and column minima; the kernel streams 512 × 512 tiles, keeps a running minimum per query point
  across the key tiles of a row of the grid, and is run a second time with the clouds exchanged to get the column
  minima as row minima. On the extended reals a minimum taken tile by tile from +infinity is the minimum over all
  keys, and the expansion is symmetric in its two points because sums and products commute; so the two programs'
  arrays of nearest-point distances agree entry by entry, and the means taken of them by the same host lines agree.
  No finiteness of the inputs is used. The idealization rewrote nothing, so its soundness statement is trivial.
  Each kernel program runs to its end, faults nowhere and leaves its arguments unchanged: a run of the body at a grid
  point, by its three cases (first, middle, last inner step), carried through the pipeline of each call and through
  the host lines after them.
-/
import proofs.«100684_j1924145348887_1_alg».proof.Defs
import proofs.«100684_j1924145348887_1_alg».proof.Proof.Gen.Kernel
import proofs.«100684_j1924145348887_1_alg».proof.Proof.Gen.KernelIdeal
import proofs.«100684_j1924145348887_1_alg».proof.Proof.Gen.ReferenceIdeal
import proofs.«100684_j1924145348887_1_alg».proof.Proof.Gen.Pre_finite_inputs
import proofs.«100684_j1924145348887_1_alg».proof.Proof.KRun
import proofs.«100684_j1924145348887_1_alg».proof.Proof.KIValues
import proofs.«100684_j1924145348887_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- And the reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten. -/
theorem preserves : Cert.preserves_Kernel_KernelIdeal := trivial

/-- From memories agreeing on the two clouds both programs end with the same three means. -/
theorem algebraic : Cert.algebraic_KernelIdeal_ReferenceIdeal := by
  intro m ρ m' ρ' _ hagree
  refine ⟨_, _, _, Cert.KernelIdeal.Hand.values m ρ, ?_⟩
  refine (θ_run Cert.ReferenceIdeal.defs _ _).mono (fun _ h c => ?_) (Cert.ReferenceIdeal.RefValue.run_values m' ρ')
  obtain ⟨h1, h2, h3, h4, h5⟩ := h c
  rw [(hagree c).1, (hagree c).2] at h1 h2 h3
  exact ⟨h1, h2, h3, h4, h5⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
